-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x40962x512 : Shape := ⟨3, ![1, 40962, 512]⟩
abbrev S2x327680 : Shape := ⟨2, ![2, 327680]⟩
abbrev S1x327680x512 : Shape := ⟨3, ![1, 327680, 512]⟩
abbrev S1024x512 : Shape := ⟨2, ![1024, 512]⟩
abbrev S512 : Shape := ⟨1, ![512]⟩
abbrev S512x512 : Shape := ⟨2, ![512, 512]⟩
abbrev S_ : Shape := ⟨0, ![]⟩

class Facts : Prop where
  bcast_S_S1x40962x512 : S_.BroadcastsInDim S1x40962x512 (![] : Fin 0 → Fin S1x40962x512.rank)
  reducesTo_S1x40962x512_S_d0_1_2 : S1x40962x512.ReducesTo [0, 1, 2] S_
  h_S_ : 0 < S_.numel
  bcast_S_S1x327680x512 : S_.BroadcastsInDim S1x327680x512 (![] : Fin 0 → Fin S1x327680x512.rank)
  reducesTo_S1x327680x512_S_d0_1_2 : S1x327680x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S512x512 .f32) (main_arg6 : FVec F S512 .f32) (main_arg7 : FVec F S512 .f32) (main_arg8 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_v33

def fn {F : FTy → Type} [FloatOps F] (main_arg0 : FVec F S1x40962x512 .f32) (main_arg1 : IVec S2x327680 32) (main_arg2 : FVec F S1x327680x512 .f32) (main_arg3 : FVec F S1024x512 .f32) (main_arg4 : FVec F S512 .f32) (main_arg5 : FVec F S512x512 .f32) (main_arg6 : FVec F S512 .f32) (main_arg7 : FVec F S512 .f32) (main_arg8 : FVec F S512 .f32) : IVec S_ 1 :=
  let main_v0 : FVec F S1x40962x512 .f32 := Host.absf main_arg0
  let main_cst : FVec F S_ .f32 := constant S_ .f32 0x7F800000#32
  let main_v1 : FVec F S1x40962x512 .f32 := broadcastInDim S1x40962x512 ![] bcast_S_S1x40962x512 main_cst
  let main_v2 : IVec S1x40962x512 1 := cmpf .olt main_v0 main_v1
  let main_c : IVec S_ 1 := constantI S_ 1 1#1
  let main_v3 : IVec S_ 1 := (fun x v => Host.reduce IntOp.andi x v reducesTo_S1x40962x512_S_d0_1_2 h_S_) main_v2 main_c
  let main_v4 : FVec F S1x327680x512 .f32 := Host.absf main_arg2
  let main_cst_0 : FVec F S_ .f32 := constant S_ .f32 0x7F800000#32
  let main_v5 : FVec F S1x327680x512 .f32 := broadcastInDim S1x327680x512 ![] bcast_S_S1x327680x512 main_cst_0
  let main_v6 : IVec S1x327680x512 1 := cmpf .olt main_v4 main_v5
  let main_c_1 : IVec S_ 1 := constantI S_ 1 1#1
  let main_v7 : IVec S_ 1 := (fun x v => Host.reduce IntOp.andi x v reducesTo_S1x327680x512_S_d0_1_2 h_S_) main_v6 main_c_1
  let main_v8 : IVec S_ 1 := andi main_v3 main_v7
  let main_v9 : FVec F S1024x512 .f32 := Host.absf main_arg3
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_v13 main_v16
-- ==== Kernel.lean ====
abbrev S1x40962x512 : Shape := ⟨3, ![1, 40962, 512]⟩
abbrev S2x327680 : Shape := ⟨2, ![2, 327680]⟩
abbrev S1x327680x512 : Shape := ⟨3, ![1, 327680, 512]⟩
abbrev S1024x512 : Shape := ⟨2, ![1024, 512]⟩
abbrev S512 : Shape := ⟨1, ![512]⟩
abbrev S512x512 : Shape := ⟨2, ![512, 512]⟩
abbrev S1x327680 : Shape := ⟨2, ![1, 327680]⟩
abbrev S327680 : Shape := ⟨1, ![327680]⟩
abbrev S_ : Shape := ⟨0, ![]⟩
abbrev S40962x512 : Shape := ⟨2, ![40962, 512]⟩
abbrev S327680x1 : Shape := ⟨2, ![327680, 1]⟩
abbrev S41984x512 : Shape := ⟨2, ![41984, 512]⟩
abbrev S1x512 : Shape := ⟨2, ![1, 512]⟩
abbrev S1024 : Shape := ⟨1, ![1024]⟩
abbrev S1024x1 : Shape := ⟨2, ![1024, 1]⟩

abbrev nBuf : Space → Nat
  | .hbm => 33
  | .vmem => 13
  | .smem => 0
  | _ => 0

abbrev bufTy : (tb : Table) → Fin (tcTables nBuf tb) → BufTy
  | .hbm, ⟨0, _⟩ => ⟨S1x40962x512, .f32⟩
  | .hbm, ⟨1, _⟩ => ⟨S2x327680, .i32⟩
  | .hbm, ⟨2, _⟩ => ⟨S1x327680x512, .f32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1x327680, .i32⟩
  | .hbm, ⟨10, _⟩ => ⟨S327680, .i32⟩
  | .hbm, ⟨11, _⟩ => ⟨S_, .f32⟩
  | .hbm, ⟨12, _⟩ => ⟨S40962x512, .f32⟩
  | .hbm, ⟨13, _⟩ => ⟨S327680x1, .i32⟩
  | .hbm, ⟨14, _⟩ => ⟨S1x40962x512, .f32⟩
  | .hbm, ⟨15, _⟩ => ⟨S1x40962x512, .f32⟩
  | .hbm, ⟨16, _⟩ => ⟨S40962x512, .f32⟩
  | .hbm, ⟨17, _⟩ => ⟨S40962x512, .f32⟩
  | .hbm, ⟨18, _⟩ => ⟨S_, .i32⟩
  | .hbm, ⟨19, _⟩ => ⟨S_, .f32⟩
  | .hbm, ⟨20, _⟩ => ⟨S41984x512, .f32⟩
  | .hbm, ⟨21, _⟩ => ⟨S_, .i32⟩
  | .hbm, ⟨22, _⟩ => ⟨S_, .f32⟩
  | .hbm, ⟨23, _⟩ => ⟨S41984x512, .f32⟩
  | .hbm, ⟨24, _⟩ => ⟨S512x512, .f32⟩
  | .hbm, ⟨25, _⟩ => ⟨S512x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S41984x512, .f32⟩
  | .hbm, ⟨31, _⟩ => ⟨S40962x512, .f32⟩
  | .hbm, ⟨32, _⟩ => ⟨S1x40962x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | _, _ => ⟨S1x40962x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_c_0 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![41], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x327680_S1x327680_1_0 : S2x327680.Slices ![1, 0] S1x327680
  shapeCasts_S1x327680_S327680 : S1x327680.ShapeCasts S327680
  bcast_S_S40962x512 : S_.BroadcastsInDim S40962x512 (![] : Fin 0 → Fin S40962x512.rank)
  bcast_S327680_S327680x1_0 : S327680.BroadcastsInDim S327680x1 (![0] : Fin 1 → Fin S327680x1.rank)
  bcast_S40962x512_S1x40962x512_1_2 : S40962x512.BroadcastsInDim S1x40962x512 (![1, 2] : Fin 2 → Fin S1x40962x512.rank)
  shapeCasts_S1x40962x512_S40962x512 : S1x40962x512.ShapeCasts S40962x512
  pads_S40962x512_S41984x512_010220_000 : S40962x512.Pads (![0, 0] : Fin 2 → Nat) ![1022, 0] ![0, 0] S41984x512
  h_S_ : 0 < S_.numel
  slices_S1024x512_S512x512_0_0 : S1024x512.Slices ![0, 0] S512x512
  slices_S1024x512_S512x512_512_0 : S1024x512.Slices ![512, 0] S512x512
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  slices_S41984x512_S40962x512_0_0 : S41984x512.Slices ![0, 0] S40962x512
  shapeCasts_S40962x512_S1x40962x512 : S40962x512.ShapeCasts S1x40962x512
  scatter_S1x40962x512_S327680x1_S1x327680x512_02_1_1_1_wf : ScatterDims.WF S1x40962x512 S327680x1 S1x327680x512 [0, 2] [1] [1] 1
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S41984x512.size a
  hwx0_0 : ∀ i : grid0.Coords, EltTy.bits .f32 = 32 ∨ (Rect.block (s := S41984x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S41984x512.size a
  hwx0_1 : ∀ i : grid0.Coords, EltTy.bits .f32 = 32 ∨ (Rect.block (s := S41984x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S41984x512.size a
  hwx0_9 : ∀ i : grid0.Coords, EltTy.bits .f32 = 32 ∨ (Rect.block (s := S41984x512) S1024x512.size (cc0_transform_9 i) (hinb0_9 i)).WholeWords (EltTy.packing .f32)

variable [Facts₀]

def scatter_S1x40962x512_S327680x1_S1x327680x512_02_1_1_1 : ScatterDims S1x40962x512 S327680x1 S1x327680x512 where
  updateWindowDims := [0, 2]
  insertedWindowDims := [1]
  scatterDimsToOperandDims := [1]
  indexVectorDim := 1
  wf := scatter_S1x40962x512_S327680x1_S1x327680x512_02_1_1_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v8) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1x40962x512 : Shape := ⟨3, ![1, 40962, 512]⟩
abbrev S2x327680 : Shape := ⟨2, ![2, 327680]⟩
abbrev S1x327680x512 : Shape := ⟨3, ![1, 327680, 512]⟩
abbrev S1024x512 : Shape := ⟨2, ![1024, 512]⟩
abbrev S512 : Shape := ⟨1, ![512]⟩
abbrev S512x512 : Shape := ⟨2, ![512, 512]⟩
abbrev S1x327680 : Shape := ⟨2, ![1, 327680]⟩
abbrev S327680 : Shape := ⟨1, ![327680]⟩
abbrev S_ : Shape := ⟨0, ![]⟩
abbrev S40962x512 : Shape := ⟨2, ![40962, 512]⟩
abbrev S327680x1 : Shape := ⟨2, ![327680, 1]⟩
abbrev S1x40962x1024 : Shape := ⟨3, ![1, 40962, 1024]⟩
abbrev S1x1x512 : Shape := ⟨3, ![1, 1, 512]⟩
abbrev S1x40962 : Shape := ⟨2, ![1, 40962]⟩
abbrev S1x40962x1 : Shape := ⟨3, ![1, 40962, 1]⟩

abbrev nBuf : Space → Nat
  | .hbm => 63
  | .vmem => 0
  | .smem => 0
  | _ => 0

abbrev bufTy : (tb : Table) → Fin (tcTables nBuf tb) → BufTy
  | .hbm, ⟨0, _⟩ => ⟨S1x40962x512, .f32⟩
  | .hbm, ⟨1, _⟩ => ⟨S2x327680, .i32⟩
  | .hbm, ⟨2, _⟩ => ⟨S1x327680x512, .f32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1x327680, .i32⟩
  | .hbm, ⟨10, _⟩ => ⟨S327680, .i32⟩
  | .hbm, ⟨11, _⟩ => ⟨S_, .f32⟩
  | .hbm, ⟨12, _⟩ => ⟨S40962x512, .f32⟩
  | .hbm, ⟨13, _⟩ => ⟨S327680x1, .i32⟩
  | .hbm, ⟨14, _⟩ => ⟨S1x40962x512, .f32⟩
  | .hbm, ⟨15, _⟩ => ⟨S1x40962x512, .f32⟩
  | .hbm, ⟨16, _⟩ => ⟨S1x40962x1024, .f32⟩
  | .hbm, ⟨17, _⟩ => ⟨S1x40962x512, .f32⟩
  | .hbm, ⟨18, _⟩ => ⟨S1x1x512, .f32⟩
  | .hbm, ⟨19, _⟩ => ⟨S1x40962x512, .f32⟩
  | .hbm, ⟨20, _⟩ => ⟨S1x40962x512, .f32⟩
  | .hbm, ⟨21, _⟩ => ⟨S1x40962x512, .f32⟩
  | .hbm, ⟨22, _⟩ => ⟨S1x40962x512, .f32⟩
  | .hbm, ⟨23, _⟩ => ⟨S_, .f32⟩
  | .hbm, ⟨24, _⟩ => ⟨S1x40962x512, .f32⟩
  | .hbm, ⟨25, _⟩ => ⟨S1x40962x512, .f32⟩
  | .hbm, ⟨26, _⟩ => ⟨S_, .f32⟩
  | .hbm, ⟨27, _⟩ => ⟨S1x40962x512, .f32⟩
  | .hbm, ⟨28, _⟩ => ⟨S1x40962x512, .f32⟩
  | .hbm, ⟨29, _⟩ => ⟨S1x40962x512, .f32⟩
  | .hbm, ⟨30, _⟩ => ⟨S1x40962x512, .f32⟩
  | .hbm, ⟨31, _⟩ => ⟨S1x1x512, .f32⟩
  | .hbm, ⟨32, _⟩ => ⟨S1x40962x512, .f32⟩
  | .hbm, ⟨33, _⟩ => ⟨S1x40962x512, .f32⟩
  | .hbm, ⟨34, _⟩ => ⟨S_, .f32⟩
  | .hbm, ⟨35, _⟩ => ⟨S1x40962, .f32⟩
  | .hbm, ⟨36, _⟩ => ⟨S1x40962x1, .f32⟩
  | .hbm, ⟨37, _⟩ => ⟨S_, .f32⟩
  | .hbm, ⟨38, _⟩ => ⟨S1x40962x1, .f32⟩
  | .hbm, ⟨39, _⟩ => ⟨S1x40962x1, .f32⟩
  | .hbm, ⟨40, _⟩ => ⟨S1x40962x512, .f32⟩
  | .hbm, ⟨41, _⟩ => ⟨S1x40962x512, .f32⟩
  | .hbm, ⟨42, _⟩ => ⟨S1x40962x512, .f32⟩
  | .hbm, ⟨43, _⟩ => ⟨S_, .f32⟩
  | .hbm, ⟨44, _⟩ => ⟨S1x40962, .f32⟩
  | .hbm, ⟨45, _⟩ => ⟨S1x40962x1, .f32⟩
  | .hbm, ⟨46, _⟩ => ⟨S_, .f32⟩
  | .hbm, ⟨47, _⟩ => ⟨S1x40962x1, .f32⟩
  | .hbm, ⟨48, _⟩ => ⟨S1x40962x1, .f32⟩
  | .hbm, ⟨49, _⟩ => ⟨S1x40962x512, .f32⟩
  | .hbm, ⟨50, _⟩ => ⟨S1x40962x512, .f32⟩
  | .hbm, ⟨51, _⟩ => ⟨S_, .f32⟩
  | .hbm, ⟨52, _⟩ => ⟨S1x40962x1, .f32⟩
  | .hbm, ⟨53, _⟩ => ⟨S1x40962x1, .f32⟩
  | .hbm, ⟨54, _⟩ => ⟨S1x40962x1, .f32⟩
  | .hbm, ⟨55, _⟩ => ⟨S1x40962x512, .f32⟩
  | .hbm, ⟨56, _⟩ => ⟨S1x40962x512, .f32⟩
  | .hbm, ⟨57, _⟩ => ⟨S1x1x512, .f32⟩
  | .hbm, ⟨58, _⟩ => ⟨S1x40962x512, .f32⟩
  | .hbm, ⟨59, _⟩ => ⟨S1x40962x512, .f32⟩
  | .hbm, ⟨60, _⟩ => ⟨S1x1x512, .f32⟩
  | .hbm, ⟨61, _⟩ => ⟨S1x40962x512, .f32⟩
  | .hbm, ⟨62, _⟩ => ⟨S1x40962x512, .f32⟩
  | _, _ => ⟨S1x40962x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  slices_S2x327680_S1x327680_1_0 : S2x327680.Slices ![1, 0] S1x327680
  shapeCasts_S1x327680_S327680 : S1x327680.ShapeCasts S327680
  bcast_S_S40962x512 : S_.BroadcastsInDim S40962x512 (![] : Fin 0 → Fin S40962x512.rank)
  bcast_S327680_S327680x1_0 : S327680.BroadcastsInDim S327680x1 (![0] : Fin 1 → Fin S327680x1.rank)
  bcast_S40962x512_S1x40962x512_1_2 : S40962x512.BroadcastsInDim S1x40962x512 (![1, 2] : Fin 2 → Fin S1x40962x512.rank)
  concatenates_S1x40962x512_S1x40962x512_S1x40962x1024_d2 : Shape.Concatenates [S1x40962x512, S1x40962x512] S1x40962x1024 2
  bcast_S512_S1x1x512_2 : S512.BroadcastsInDim S1x1x512 (![2] : Fin 1 → Fin S1x1x512.rank)
  bcast_S1x1x512_S1x40962x512_0_1_2 : S1x1x512.BroadcastsInDim S1x40962x512 (![0, 1, 2] : Fin 3 → Fin S1x40962x512.rank)
  bcast_S_S1x40962x512 : S_.BroadcastsInDim S1x40962x512 (![] : Fin 0 → Fin S1x40962x512.rank)
  reducesTo_S1x40962x512_S1x40962_d2 : S1x40962x512.ReducesTo [2] S1x40962
  h_S_ : 0 < S_.numel
  bcast_S1x40962_S1x40962x1_0_1 : S1x40962.BroadcastsInDim S1x40962x1 (![0, 1] : Fin 2 → Fin S1x40962x1.rank)
  bcast_S_S1x40962x1 : S_.BroadcastsInDim S1x40962x1 (![] : Fin 0 → Fin S1x40962x1.rank)
  bcast_S1x40962x1_S1x40962x512_0_1_2 : S1x40962x1.BroadcastsInDim S1x40962x512 (![0, 1, 2] : Fin 3 → Fin S1x40962x512.rank)
  scatter_S1x40962x512_S327680x1_S1x327680x512_02_1_1_1_wf : ScatterDims.WF S1x40962x512 S327680x1 S1x327680x512 [0, 2] [1] [1] 1
  dot_S1x40962x1024_S1024x512_S1x40962x512_2_0_01_1_n_n_wf : DotDims.WF S1x40962x1024 S1024x512 S1x40962x512 [2] [0] [0, 1] [1] [] []
  dot_S1x40962x512_S512x512_S1x40962x512_2_0_01_1_n_n_wf : DotDims.WF S1x40962x512 S512x512 S1x40962x512 [2] [0] [0, 1] [1] [] []

variable [Facts₀]

def scatter_S1x40962x512_S327680x1_S1x327680x512_02_1_1_1 : ScatterDims S1x40962x512 S327680x1 S1x327680x512 where
  updateWindowDims := [0, 2]
  insertedWindowDims := [1]
  scatterDimsToOperandDims := [1]
  indexVectorDim := 1
  wf := scatter_S1x40962x512_S327680x1_S1x327680x512_02_1_1_1_wf
def dot_S1x40962x1024_S1024x512_S1x40962x512_2_0_01_1_n_n : DotDims S1x40962x1024 S1024x512 S1x40962x512 where
  lhsContracting := [2]
  rhsContracting := [0]
  lhsNonContracting := [0, 1]
  rhsNonContracting := [1]
  lhsBatch := []
  rhsBatch := []
  wf := dot_S1x40962x1024_S1024x512_S1x40962x512_2_0_01_1_n_n_wf
def dot_S1x40962x512_S512x512_S1x40962x512_2_0_01_1_n_n : DotDims S1x40962x512 S512x512 S1x40962x512 where
  lhsContracting := [2]
  rhsContracting := [0]
  lhsNonContracting := [0, 1]
  rhsNonContracting := [1]
  lhsBatch := []
  rhsBatch := []
  wf := dot_S1x40962x512_S512x512_S1x40962x512_2_0_01_1_n_n_wf

class Facts : Prop extends Facts₀ where

variable [Facts]
-- ==== Proof.RowMlp.lean ====
/-
  One row of the result, as a function of that row's inputs and of the parameters.

  A row has a node part `xn` and an aggregated-edge part `xe`, 512 entries each. The first layer maps the 1024
  joined entries through a 1024-by-512 matrix and adds a bias; each hidden entry `h` is gated to `h · σ(h)` with
  `σ(h) = 1 / (1 + e^(-h))`; the second layer is a 512-by-512 matrix and a bias. The 512 outputs `y` of the row are
  then centred by their mean `μ = (Σ y) / 512`, scaled by `(Σ (y-μ)² / 512 + ε)^(-1/2)`, and mapped entrywise through
  a gain and an offset.

  Two spellings of the first layer: over the joined row (one sum of 1024 products), and split (the node part
  against the upper 512 matrix rows plus the edge part against the lower 512). They agree on the extended reals
  because a finite sum may be cut in two: addition there is commutative and associative, and nothing is cancelled
  or distributed, so no finiteness is needed.
-/
import Idealize.ShloMosaic.PureOps.Ideal
import Mathlib.Algebra.BigOperators.Fin

noncomputable section

namespace Cert.RowMlp

open Idealize.ShloMosaic
open scoped BigOperators

/-- The row length 512 as the binary32 word both programs divide by; never evaluated. -/
abbrev cWidth : EReal := Ideal.ofBits .f32 0x44000000#32
/-- The variance floor ε as the binary32 word both programs add; never evaluated. -/
abbrev cEps : EReal := Ideal.ofBits .f32 0x3727C5AC#32

/-- Column `j < 512` of the joined row is row `j` of the upper half of the first matrix. -/
abbrev upper (j : Fin 512) : Fin 1024 := ⟨j.val, by have := j.isLt; omega⟩
/-- Column `512 + j` of the joined row is row `j` of the lower half. -/
abbrev lower (j : Fin 512) : Fin 1024 := ⟨512 + j.val, by have := j.isLt; omega⟩

/-- The joined row: the node part, then the edge part. -/
def joined (xn xe : Fin 512 → EReal) (j : Fin 1024) : EReal :=
  if h : j.val < 512 then xn ⟨j.val, h⟩ else xe ⟨j.val - 512, by have := j.isLt; omega⟩

/-- Hidden entry `k` before the gate, over the joined row. -/
def hiddenJoined (x : Fin 1024 → EReal) (W : Fin 1024 → Fin 512 → EReal) (b1 : Fin 512 → EReal) (k : Fin 512) : EReal :=
  ∑ j : Fin 1024, x j * W j k + b1 k

/-- Hidden entry `k` before the gate, the two parts contracted separately. -/
def hiddenSplit (xn xe : Fin 512 → EReal) (A B : Fin 512 → Fin 512 → EReal) (b1 : Fin 512 → EReal) (k : Fin 512) : EReal :=
  (∑ j : Fin 512, xn j * A j k + ∑ j : Fin 512, xe j * B j k) + b1 k

/-- The gate `h · σ(h)`. -/
def gated (h : EReal) : EReal := h * Ideal.logistic h

/-- The second layer at output `o`. -/
def second (s : Fin 512 → EReal) (W2 : Fin 512 → Fin 512 → EReal) (b2 : Fin 512 → EReal) (o : Fin 512) : EReal :=
  ∑ k : Fin 512, s k * W2 k o + b2 o

/-- The row's mean. -/
def mean (y : Fin 512 → EReal) : EReal := Ideal.div (∑ o : Fin 512, y o) cWidth
/-- The row centred. -/
def centred (y : Fin 512 → EReal) (o : Fin 512) : EReal := y o - mean y
/-- The mean of the squared deviations. -/
def variance (y : Fin 512 → EReal) : EReal := Ideal.div (∑ o : Fin 512, centred y o * centred y o) cWidth
/-- The normalised row under the gain `g` and the offset `b`. -/
def normed (y g b : Fin 512 → EReal) (o : Fin 512) : EReal :=
  centred y o * Ideal.rsqrt (variance y + cEps) * g o + b o

/-- The whole row, first layer over the joined row. -/
def rowJoined (x : Fin 1024 → EReal) (W : Fin 1024 → Fin 512 → EReal) (b1 : Fin 512 → EReal)
    (W2 : Fin 512 → Fin 512 → EReal) (b2 g b : Fin 512 → EReal) (o : Fin 512) : EReal :=
  normed (second (fun k => gated (hiddenJoined x W b1 k)) W2 b2) g b o

/-- The whole row, first layer split. -/
def rowSplit (xn xe : Fin 512 → EReal) (A B : Fin 512 → Fin 512 → EReal) (b1 : Fin 512 → EReal)
    (W2 : Fin 512 → Fin 512 → EReal) (b2 g b : Fin 512 → EReal) (o : Fin 512) : EReal :=
  normed (second (fun k => gated (hiddenSplit xn xe A B b1 k)) W2 b2) g b o

/-- A sum over the 1024 joined columns is the sum over the first 512 plus the sum over the last 512. -/
theorem sum_joined (f : Fin 1024 → EReal) :
    ∑ j : Fin 1024, f j = ∑ j : Fin 512, f (upper j) + ∑ j : Fin 512, f (lower j) := by
  have h := Fin.sum_univ_add (M := EReal) (a := 512) (b := 512) f
  refine h.trans ?_
  congr 1

theorem joined_upper (xn xe : Fin 512 → EReal) (j : Fin 512) : joined xn xe (upper j) = xn j := by
  unfold joined
  rw [dif_pos (show (upper j).val < 512 from j.isLt)]

theorem joined_lower (xn xe : Fin 512 → EReal) (j : Fin 512) : joined xn xe (lower j) = xe j := by
  unfold joined
  rw [dif_neg (show ¬ (lower j).val < 512 by show ¬ (512 + j.val < 512); omega)]
  exact congrArg xe (Fin.ext (by show 512 + j.val - 512 = j.val; omega))

/-- The first layer over the joined row is the split first layer against the two halves of the matrix. -/
theorem hiddenJoined_eq_split (xn xe : Fin 512 → EReal) (W : Fin 1024 → Fin 512 → EReal) (b1 : Fin 512 → EReal) (k : Fin 512) :
    hiddenJoined (joined xn xe) W b1 k
      = hiddenSplit xn xe (fun j k => W (upper j) k) (fun j k => W (lower j) k) b1 k := by
  unfold hiddenJoined hiddenSplit
  rw [sum_joined]
  simp only [joined_upper, joined_lower]

/-- So the whole rows agree. -/
theorem rowJoined_eq_split (xn xe : Fin 512 → EReal) (W : Fin 1024 → Fin 512 → EReal) (b1 : Fin 512 → EReal)
    (W2 : Fin 512 → Fin 512 → EReal) (b2 g b : Fin 512 → EReal) (o : Fin 512) :
    rowJoined (joined xn xe) W b1 W2 b2 g b o
      = rowSplit xn xe (fun j k => W (upper j) k) (fun j k => W (lower j) k) b1 W2 b2 g b o := by
  unfold rowJoined rowSplit
  simp only [hiddenJoined_eq_split]

end Cert.RowMlp

end
-- ==== Proof.RefRead.lean ====
import proofs.«156666_j11991548690715_1_alg».proof.Proof.Gen.ReferenceIdeal.Read
import proofs.«156666_j11991548690715_1_alg».proof.Proof.RowMlp
import Idealize.ShloMosaic.Lib.ValueIdx
import Idealize.ShloMosaic.Lib.Pipeline.Value
import Idealize.ShloMosaic.Lib.IdealHost
import Idealize.ShloMosaic.PureOps.Ideal.Laws

/-
  The reference's result, read at row `n` and column `o`, is row `n` of the specification at `o`, with the first
  layer contracted over the joined row.

  The reference joins the node features with the scatter-added edge sums along the last axis: column `k` of the
  joined row is node entry `k` for `k < 512` and edge-sum entry `k - 512` otherwise. The first layer at hidden
  entry `k` is the sum over the 1024 joined columns of the row's entry times the first matrix's entry, plus the
  bias. The gate is spelled out as `h · (1 / (1 + e^(-h)))`, which is `h` times the logistic function of `h` by that
  function's definition on the extended reals. The second layer is a sum over the 512 hidden entries plus a bias.
  The mean and the mean squared deviation are sums over the row's 512 outputs, started from zero, divided by 512;
  the result is the centred output times the inverse square root of the deviation plus `ε`, times the gain, plus the
  offset. The scatter-added edge sums are kept as one opaque array.
-/

noncomputable section

namespace Cert.RefRead

open Idealize.ShloMosaic Idealize.ShloMosaic.ValueIdx Cert.ReferenceIdeal Cert.ReferenceIdeal.Read
open scoped BigOperators

section Rows

variable (x0 : (⟨S1x40962x512, .f32⟩ : BufTy).Contents (Elt Ideal)) (x1 : (⟨S2x327680, .i32⟩ : BufTy).Contents (Elt Ideal))
    (x2 : (⟨S1x327680x512, .f32⟩ : BufTy).Contents (Elt Ideal)) (x3 : (⟨S1024x512, .f32⟩ : BufTy).Contents (Elt Ideal))
    (x4 : (⟨S512, .f32⟩ : BufTy).Contents (Elt Ideal)) (x5 : (⟨S512x512, .f32⟩ : BufTy).Contents (Elt Ideal))
    (x6 x7 x8 : (⟨S512, .f32⟩ : BufTy).Contents (Elt Ideal)) (n : Fin 40962)

/-- Row `n` of the joined input: the 512 node entries, then the 512 aggregated edge entries. -/
abbrev xrow : Fin 1024 → EReal :=
  Cert.RowMlp.joined (fun j => x0 (ix3 (0 : Fin 1) n j)) (fun j => val_main_v5 (F := Ideal) x1 x2 (ix3 (0 : Fin 1) n j))

/-- Hidden entry `k` of row `n` before the gate. -/
abbrev hid (k : Fin 512) : EReal :=
  Cert.RowMlp.hiddenJoined (xrow x0 x1 x2 n) (fun j k => x3 (ix2 j k)) (fun k => x4 (ix1 k)) k

/-- Output `o` of the second layer on row `n`. -/
abbrev yrow (o : Fin 512) : EReal :=
  Cert.RowMlp.second (fun k => Cert.RowMlp.gated (hid x0 x1 x2 x3 x4 n k)) (fun k o' => x5 (ix2 k o')) (fun o' => x6 (ix1 o')) o

/-- The joined array at row `n`, column `k`: for `k < 512` the node array at the same coordinates, otherwise the
    aggregated edge array at column `k - 512`. -/
theorem joined_at (o' : Fin 512) (k : Fin 1024) :
    val_main_v6 (F := Ideal) x0 x1 x2 (lidx_main_v7 (ix3 (0 : Fin 1) n o') k) = xrow x0 x1 x2 n k := by
  unfold val_main_v6
  show _ = Cert.RowMlp.joined _ _ k
  unfold Cert.RowMlp.joined
  by_cases h : k.val < 512
  · rw [dif_pos h]
    exact concatenate_pair_apply_left (2 : Fin S1x40962x1024.rank) x0 (val_main_v5 (F := Ideal) x1 x2) _ _ rfl
      (ix3 (0 : Fin 1) n ⟨k.val, h⟩)
      (fun b => match b with | ⟨0, _⟩ => rfl | ⟨1, _⟩ => rfl | ⟨2, _⟩ => rfl)
  · rw [dif_neg h]
    exact concatenate_pair_apply_right (2 : Fin S1x40962x1024.rank) x0 (val_main_v5 (F := Ideal) x1 x2) _ _ rfl rfl
      (ix3 (0 : Fin 1) n ⟨k.val - 512, by have := k.isLt; omega⟩)
      (fun b hb => match b, hb with
        | ⟨0, _⟩, _ => rfl
        | ⟨1, _⟩, _ => rfl
        | ⟨2, _⟩, hb => absurd rfl hb)
      (by show k.val - 512 + 512 = k.val; omega)

theorem ridx7 (k : Fin 512) (j : Fin 1024) : ridx_main_v7 (ix3 (0 : Fin 1) n k) j = ix2 j k :=
  funext fun a => Fin.ext (by match a with | ⟨0, _⟩ => rfl | ⟨1, _⟩ => rfl)

/-- The first layer at row `n`, hidden entry `k`: the 1024 products of the joined row with column `k` of the
    first matrix, summed, plus the bias. -/
theorem hidden_at (k : Fin 512) :
    val_main_v10 (F := Ideal) x0 x1 x2 x3 x4 (ix3 (0 : Fin 1) n k) = hid x0 x1 x2 x3 x4 n k := by
  rw [val_main_v10_apply, val_main_v7_apply, val_main_v9_apply, val_main_v8_apply]
  show _ = Cert.RowMlp.hiddenJoined _ _ _ k
  unfold Cert.RowMlp.hiddenJoined
  simp only [Ideal.addf_def]
  refine congrArg₂ (· + ·) (Finset.sum_congr rfl fun j _ => ?_) ?_
  · rw [joined_at, ridx7]
  · exact congrArg x4 (funext fun a => Fin.ext (by match a with | ⟨0, _⟩ => rfl))

/-- The gate at row `n`, entry `k`: the hidden entry `h` times `1 / (1 + e^(-h))`. -/
theorem gated_at (k : Fin 512) :
    val_main_v11 (F := Ideal) x0 x1 x2 x3 x4 (ix3 (0 : Fin 1) n k) = Cert.RowMlp.gated (hid x0 x1 x2 x3 x4 n k) := by
  rw [val_main_v11_apply, val_main_call0_v5_apply, val_main_call0_v4_apply, val_main_call0_cst_0_apply,
    val_main_call0_v3_apply, val_main_call0_v2_apply, val_main_call0_cst_apply, val_main_call0_v1_apply,
    val_main_call0_v0_apply, hidden_at]
  unfold Cert.RowMlp.gated Ideal.logistic
  simp only [Ideal.mulf_def, Ideal.hostDivf_def, Ideal.addf_def, Ideal.hostUnary_exp_def, Ideal.hostNegf_def,
    Ideal.negf_def, Ideal.ofBits_def, Ideal.ofBits_one_f32]

theorem lidx12 (o k : Fin 512) : lidx_main_v12 (ix3 (0 : Fin 1) n o) k = ix3 (0 : Fin 1) n k :=
  funext fun a => Fin.ext (by match a with | ⟨0, _⟩ => rfl | ⟨1, _⟩ => rfl | ⟨2, _⟩ => rfl)

theorem ridx12 (o k : Fin 512) : ridx_main_v12 (ix3 (0 : Fin 1) n o) k = ix2 k o :=
  funext fun a => Fin.ext (by match a with | ⟨0, _⟩ => rfl | ⟨1, _⟩ => rfl)

/-- The second layer at row `n`, output `o`: the 512 gated entries against column `o` of the second matrix,
    summed, plus the bias. -/
theorem second_at (o : Fin 512) :
    val_main_v15 (F := Ideal) x0 x1 x2 x3 x4 x5 x6 (ix3 (0 : Fin 1) n o) = yrow x0 x1 x2 x3 x4 x5 x6 n o := by
  rw [val_main_v15_apply, val_main_v12_apply, val_main_v14_apply, val_main_v13_apply]
  show _ = Cert.RowMlp.second _ _ _ o
  unfold Cert.RowMlp.second
  simp only [Ideal.addf_def]
  refine congrArg₂ (· + ·) (Finset.sum_congr rfl fun k _ => ?_) ?_
  · rw [lidx12, ridx12, gated_at]
  · exact congrArg x6 (funext fun a => Fin.ext (by match a with | ⟨0, _⟩ => rfl))

theorem idx16 (k : Fin 512) :
    idx_main_v16 (idx_main_v17 (ix3 (0 : Fin 1) n (0 : Fin 1))) k = ix3 (0 : Fin 1) n k :=
  funext fun a => Fin.ext (by match a with | ⟨0, _⟩ => rfl | ⟨1, _⟩ => rfl | ⟨2, _⟩ => rfl)

/-- The mean of row `n`: zero plus the sum of the row's 512 second-layer outputs, over 512. -/
theorem mean_at :
    val_main_v19 (F := Ideal) x0 x1 x2 x3 x4 x5 x6 (ix3 (0 : Fin 1) n (0 : Fin 1))
      = Cert.RowMlp.mean (yrow x0 x1 x2 x3 x4 x5 x6 n) := by
  rw [val_main_v19_apply, val_main_v17_apply, val_main_v16_apply, val_main_v18_apply, val_main_cst_1_apply,
    val_main_cst_0_apply]
  unfold Cert.RowMlp.mean
  simp only [Ideal.hostDivf_def, Ideal.ofBits_def, Ideal.ofBits_zero_f32, zero_add, idx16, second_at]

theorem idx20 (o : Fin 512) : idx_main_v20 (ix3 (0 : Fin 1) n o) = ix3 (0 : Fin 1) n (0 : Fin 1) :=
  funext fun a => Fin.ext (by match a with | ⟨0, _⟩ => rfl | ⟨1, _⟩ => rfl | ⟨2, _⟩ => rfl)

theorem idx27 (o : Fin 512) : idx_main_v27 (ix3 (0 : Fin 1) n o) = ix3 (0 : Fin 1) n (0 : Fin 1) :=
  funext fun a => Fin.ext (by match a with | ⟨0, _⟩ => rfl | ⟨1, _⟩ => rfl | ⟨2, _⟩ => rfl)

/-- The deviation the variance squares: output `o` of row `n` minus the row's mean. -/
theorem centred21_at (o : Fin 512) :
    val_main_v21 (F := Ideal) x0 x1 x2 x3 x4 x5 x6 (ix3 (0 : Fin 1) n o)
      = Cert.RowMlp.centred (yrow x0 x1 x2 x3 x4 x5 x6 n) o := by
  rw [val_main_v21_apply, val_main_v20_apply, idx20, mean_at, second_at]
  rfl

/-- The deviation the result scales: the same difference, broadcast a second time by the program. -/
theorem centred28_at (o : Fin 512) :
    val_main_v28 (F := Ideal) x0 x1 x2 x3 x4 x5 x6 (ix3 (0 : Fin 1) n o)
      = Cert.RowMlp.centred (yrow x0 x1 x2 x3 x4 x5 x6 n) o := by
  rw [val_main_v28_apply, val_main_v27_apply, idx27, mean_at, second_at]
  rfl

theorem idx23 (k : Fin 512) :
    idx_main_v23 (idx_main_v24 (ix3 (0 : Fin 1) n (0 : Fin 1))) k = ix3 (0 : Fin 1) n k :=
  funext fun a => Fin.ext (by match a with | ⟨0, _⟩ => rfl | ⟨1, _⟩ => rfl | ⟨2, _⟩ => rfl)

/-- The variance of row `n`: zero plus the sum of the 512 squared deviations, over 512. -/
theorem var_at :
    val_main_v26 (F := Ideal) x0 x1 x2 x3 x4 x5 x6 (ix3 (0 : Fin 1) n (0 : Fin 1))
      = Cert.RowMlp.variance (yrow x0 x1 x2 x3 x4 x5 x6 n) := by
  rw [val_main_v26_apply, val_main_v24_apply, val_main_v23_apply, val_main_v25_apply, val_main_cst_3_apply,
    val_main_cst_2_apply]
  unfold Cert.RowMlp.variance
  simp only [Ideal.hostDivf_def, Ideal.ofBits_def, Ideal.ofBits_zero_f32, zero_add, val_main_v22_apply,
    Ideal.mulf_def, idx23, centred21_at]

theorem idx32 (o : Fin 512) : idx_main_v32 (ix3 (0 : Fin 1) n o) = ix3 (0 : Fin 1) n (0 : Fin 1) :=
  funext fun a => Fin.ext (by match a with | ⟨0, _⟩ => rfl | ⟨1, _⟩ => rfl | ⟨2, _⟩ => rfl)

theorem idx_gain (o : Fin 512) : idx_main_v34 (idx_main_v35 (ix3 (0 : Fin 1) n o)) = ix1 o :=
  funext fun a => Fin.ext (by match a with | ⟨0, _⟩ => rfl)

theorem idx_offset (o : Fin 512) : idx_main_v37 (idx_main_v38 (ix3 (0 : Fin 1) n o)) = ix1 o :=
  funext fun a => Fin.ext (by match a with | ⟨0, _⟩ => rfl)

end Rows

/-- The reference's result at row `n`, column `o` is the specification's row: the deviation of the second layer's
    output from the row mean, times the reciprocal square root of the row variance plus the floor, times the gain,
    plus the offset. -/
theorem result_at (x0 : (⟨S1x40962x512, .f32⟩ : BufTy).Contents (Elt Ideal)) (x1 : (⟨S2x327680, .i32⟩ : BufTy).Contents (Elt Ideal))
    (x2 : (⟨S1x327680x512, .f32⟩ : BufTy).Contents (Elt Ideal)) (x3 : (⟨S1024x512, .f32⟩ : BufTy).Contents (Elt Ideal))
    (x4 : (⟨S512, .f32⟩ : BufTy).Contents (Elt Ideal)) (x5 : (⟨S512x512, .f32⟩ : BufTy).Contents (Elt Ideal))
    (x6 x7 x8 : (⟨S512, .f32⟩ : BufTy).Contents (Elt Ideal)) (n : Fin 40962) (o : Fin 512) :
    val_main_v39 (F := Ideal) x0 x1 x2 x3 x4 x5 x6 x7 x8 (ix3 (0 : Fin 1) n o)
      = Cert.RowMlp.rowJoined
          (Cert.RowMlp.joined (fun j => x0 (ix3 (0 : Fin 1) n j)) (fun j => val_main_v5 (F := Ideal) x1 x2 (ix3 (0 : Fin 1) n j)))
          (fun j k => x3 (ix2 j k)) (fun k => x4 (ix1 k)) (fun k o' => x5 (ix2 k o')) (fun o' => x6 (ix1 o'))
          (fun o' => x7 (ix1 o')) (fun o' => x8 (ix1 o')) o := by
  rw [val_main_v39_apply, val_main_v36_apply, val_main_v33_apply, val_main_v38_apply, val_main_v37_apply,
    val_main_v35_apply, val_main_v34_apply, val_main_v32_apply, val_main_v31_apply, val_main_v30_apply,
    val_main_v29_apply, val_main_cst_4_apply, idx32, var_at, centred28_at, idx_gain, idx_offset]
  rfl

end Cert.RefRead

end
-- ==== Proof.EntryArrays.lean ====
/-
  What the kernel's operand arrays hold when the region is entered, read at an index.

  The node features and the scatter-added edge sums are reshaped to 40962 rows of 512 and padded below with 1022
  rows, to 41 blocks of 1024 rows: a row `n < 40962` of a padded array is row `n` of the unpadded one. The first
  matrix is cut into its upper and lower 512 rows. The two biases, the gain and the offset are read as 1-by-512 rows.
  The second matrix is the argument itself.
-/
import proofs.«156666_j11991548690715_1_alg».proof.Proof.Gen.KernelIdeal.Frame
import proofs.«156666_j11991548690715_1_alg».proof.Proof.RowMlp
import Idealize.ShloMosaic.Lib.StableHlo.Run
import Idealize.ShloMosaic.Lib.ValueIdx
import Idealize.ShloMosaic.Lib.Pipeline.Value
import Idealize.ShloMosaic.Lib.KernelVsHost

noncomputable section

namespace Cert.KernelEntry

open Idealize.ShloMosaic Idealize.ShloMosaic.TcCoe Idealize.SL.Sem Idealize.ShloMosaic.ValueIdx Idealize.ShloMosaic.StableHlo
open Cert.KernelIdeal Cert.KernelIdeal.Gen Cert.RowMlp

variable (m : (ℓ : Loc nD τ sig) → Buf (Elt Ideal) ℓ)

/-- The edge features scatter-added into their receiver nodes' rows, from zero: the array both programs compute
    with one and the same host operation. It is never opened. -/
def edgeSum (c : Dev nD) : S1x40962x512.Idx → EReal :=
  Host.scatterAdd (F := Ideal) scatter_S1x40962x512_S327680x1_S1x327680x512_02_1_1_1
    (broadcastInDim S1x40962x512 ![1, 2] bcast_S40962x512_S1x40962x512_1_2
      (broadcastInDim S40962x512 ![] bcast_S_S40962x512 (constant (F := Ideal) S_ .f32 0x00000000#32)))
    (broadcastInDim S327680x1 ![0] bcast_S327680_S327680x1_0
      (shapeCast S327680 (extractStridedSlice S1x327680 ![1, 0] (m ((c : Thread nD τ).loc main_arg1)) slices_S2x327680_S1x327680_1_0)
        shapeCasts_S1x327680_S327680))
    (m ((c : Thread nD τ).loc main_arg2))

/-- The padded node array is the pad of the reshaped argument. -/
theorem nodePad_eq (c : Dev nD) : (V m c main_v8 : S41984x512.Idx → EReal)
    = pad S41984x512 ![0, 0] ![1022, 0] ![0, 0]
        (shapeCast S40962x512 (m ((c : Thread nD τ).loc main_arg0)) shapeCasts_S1x40962x512_S40962x512)
        (sitofp (F := Ideal) .f32 (constantI S_ 32 0#32)) pads_S40962x512_S41984x512_010220_000 h_S_ := by
  dsimp only [V, V0]
  simp only [hostOps0, hostOps0_1, hostOps0_2, hostOps0_3, hostOps0_4, List.flatten_cons, List.flatten_nil, List.append_nil,
    List.cons_append, List.nil_append]
  after_results
  rfl

/-- The padded edge-sum array is the pad of the reshaped scatter-add. -/
theorem edgePad_eq (c : Dev nD) : (V m c main_v9 : S41984x512.Idx → EReal)
    = pad S41984x512 ![0, 0] ![1022, 0] ![0, 0]
        (shapeCast S40962x512 (edgeSum m c) shapeCasts_S1x40962x512_S40962x512)
        (sitofp (F := Ideal) .f32 (constantI S_ 32 0#32)) pads_S40962x512_S41984x512_010220_000 h_S_ := by
  dsimp only [V, V0]
  simp only [hostOps0, hostOps0_1, hostOps0_2, hostOps0_3, hostOps0_4, List.flatten_cons, List.flatten_nil, List.append_nil,
    List.cons_append, List.nil_append]
  after_results
  rfl

/-- A pad below, read at a row of the operand, is the operand's row; the reshape [1, 40962, 512] → [40962, 512]
    keeps the row and the column. -/
theorem padded_row (x : S1x40962x512.Idx → EReal) (v : S_.Idx → EReal) (n : Fin 40962) (j : Fin 512) :
    pad S41984x512 ![0, 0] ![1022, 0] ![0, 0] (shapeCast S40962x512 x shapeCasts_S1x40962x512_S40962x512) v
        pads_S40962x512_S41984x512_010220_000 h_S_ (ix2 (⟨n.val, by have := n.isLt; omega⟩ : Fin 41984) j)
      = x (ix3 (0 : Fin 1) n j) := by
  refine (pad_apply_of_inside ![0, 0] ![1022, 0] ![0, 0] _ v pads_S40962x512_S41984x512_010220_000 h_S_ _ (ix2 n j) (fun a => ?_)).trans ?_
  · match a with
    | ⟨0, _⟩ => show n.val = 0 + n.val * (0 + 1); omega
    | ⟨1, _⟩ => show j.val = 0 + j.val * (0 + 1); omega
  · exact shapeCast_apply x shapeCasts_S1x40962x512_S40962x512 (ix2 n j) (ix3 (0 : Fin 1) n j)
      (by rewrite [Shape.rowMajor_val_three, Shape.rowMajor_val_two]; show (0 * 40962 + n.val) * 512 + j.val = n.val * 512 + j.val; omega)

/-- Row `n < 40962` of the padded node array is row `n` of the node features. -/
theorem node_row (c : Dev nD) (n : Fin 40962) (j : Fin 512) :
    (V m c main_v8 : S41984x512.Idx → EReal) (ix2 (⟨n.val, by have := n.isLt; omega⟩ : Fin 41984) j)
      = m ((c : Thread nD τ).loc main_arg0) (ix3 (0 : Fin 1) n j) := by
  rw [nodePad_eq]; exact padded_row _ _ n j

/-- Row `n < 40962` of the padded edge-sum array is row `n` of the scatter-added edge sums. -/
theorem edge_row (c : Dev nD) (n : Fin 40962) (j : Fin 512) :
    (V m c main_v9 : S41984x512.Idx → EReal) (ix2 (⟨n.val, by have := n.isLt; omega⟩ : Fin 41984) j)
      = edgeSum m c (ix3 (0 : Fin 1) n j) := by
  rw [edgePad_eq]; exact padded_row _ _ n j

/-- The upper half of the first matrix. -/
theorem upper_at (c : Dev nD) (j k : Fin 512) :
    (V m c main_v10 : S512x512.Idx → EReal) (ix2 j k) = m ((c : Thread nD τ).loc main_arg3) (ix2 (upper j) k) := by
  have e : (V m c main_v10 : S512x512.Idx → EReal)
      = extractStridedSlice S512x512 ![0, 0] (m ((c : Thread nD τ).loc main_arg3)) slices_S1024x512_S512x512_0_0 := by
    dsimp only [V, V0]
    simp only [hostOps0, hostOps0_1, hostOps0_2, hostOps0_3, hostOps0_4, List.flatten_cons, List.flatten_nil, List.append_nil,
      List.cons_append, List.nil_append]
    after_results
  rw [e]
  exact extractStridedSlice_apply ![0, 0] _ slices_S1024x512_S512x512_0_0 (ix2 j k) (ix2 (upper j) k) (fun a => match a with
    | ⟨0, _⟩ => by show j.val = 0 + j.val; omega
    | ⟨1, _⟩ => by show k.val = 0 + k.val; omega)

/-- The lower half of the first matrix. -/
theorem lower_at (c : Dev nD) (j k : Fin 512) :
    (V m c main_v11 : S512x512.Idx → EReal) (ix2 j k) = m ((c : Thread nD τ).loc main_arg3) (ix2 (lower j) k) := by
  have e : (V m c main_v11 : S512x512.Idx → EReal)
      = extractStridedSlice S512x512 ![512, 0] (m ((c : Thread nD τ).loc main_arg3)) slices_S1024x512_S512x512_512_0 := by
    dsimp only [V, V0]
    simp only [hostOps0, hostOps0_1, hostOps0_2, hostOps0_3, hostOps0_4, List.flatten_cons, List.flatten_nil, List.append_nil,
      List.cons_append, List.nil_append]
    after_results
  rw [e]
  exact extractStridedSlice_apply ![512, 0] _ slices_S1024x512_S512x512_512_0 (ix2 j k) (ix2 (lower j) k) (fun a => match a with
    | ⟨0, _⟩ => by show 512 + j.val = 512 + j.val; omega
    | ⟨1, _⟩ => by show k.val = 0 + k.val; omega)

/-- A length-512 vector reshaped to one row of 512, read in that row. -/
theorem asRow_at (x : S512.Idx → EReal) (k : Fin 512) :
    shapeCast S1x512 x shapeCasts_S512_S1x512 (ix2 (0 : Fin 1) k) = x (ix1 k) :=
  shapeCast_apply x shapeCasts_S512_S1x512 (ix2 (0 : Fin 1) k) (ix1 k)
    (by rewrite [Shape.rowMajor_val_one, Shape.rowMajor_val_two]; show k.val = 0 * 512 + k.val; omega)

/-- The first bias as a row. -/
theorem bias1_at (c : Dev nD) (k : Fin 512) :
    (V m c main_v12 : S1x512.Idx → EReal) (ix2 (0 : Fin 1) k) = m ((c : Thread nD τ).loc main_arg4) (ix1 k) := by
  have e : (V m c main_v12 : S1x512.Idx → EReal) = shapeCast S1x512 (m ((c : Thread nD τ).loc main_arg4)) shapeCasts_S512_S1x512 := by
    dsimp only [V, V0]
    simp only [hostOps0, hostOps0_1, hostOps0_2, hostOps0_3, hostOps0_4, List.flatten_cons, List.flatten_nil, List.append_nil,
      List.cons_append, List.nil_append]
    after_results
    rfl
  rw [e]; exact asRow_at _ k

/-- The second bias as a row. -/
theorem bias2_at (c : Dev nD) (k : Fin 512) :
    (V m c main_v13 : S1x512.Idx → EReal) (ix2 (0 : Fin 1) k) = m ((c : Thread nD τ).loc main_arg6) (ix1 k) := by
  have e : (V m c main_v13 : S1x512.Idx → EReal) = shapeCast S1x512 (m ((c : Thread nD τ).loc main_arg6)) shapeCasts_S512_S1x512 := by
    dsimp only [V, V0]
    simp only [hostOps0, hostOps0_1, hostOps0_2, hostOps0_3, hostOps0_4, List.flatten_cons, List.flatten_nil, List.append_nil,
      List.cons_append, List.nil_append]
    after_results
    rfl
  rw [e]; exact asRow_at _ k

/-- The gain as a row. -/
theorem gain_at (c : Dev nD) (k : Fin 512) :
    (V m c main_v14 : S1x512.Idx → EReal) (ix2 (0 : Fin 1) k) = m ((c : Thread nD τ).loc main_arg7) (ix1 k) := by
  have e : (V m c main_v14 : S1x512.Idx → EReal) = shapeCast S1x512 (m ((c : Thread nD τ).loc main_arg7)) shapeCasts_S512_S1x512 := by
    dsimp only [V, V0]
    simp only [hostOps0, hostOps0_1, hostOps0_2, hostOps0_3, hostOps0_4, List.flatten_cons, List.flatten_nil, List.append_nil,
      List.cons_append, List.nil_append]
    after_results
    rfl
  rw [e]; exact asRow_at _ k

/-- The offset as a row. -/
theorem offset_at (c : Dev nD) (k : Fin 512) :
    (V m c main_v15 : S1x512.Idx → EReal) (ix2 (0 : Fin 1) k) = m ((c : Thread nD τ).loc main_arg8) (ix1 k) := by
  have e : (V m c main_v15 : S1x512.Idx → EReal) = shapeCast S1x512 (m ((c : Thread nD τ).loc main_arg8)) shapeCasts_S512_S1x512 := by
    dsimp only [V, V0]
    simp only [hostOps0, hostOps0_1, hostOps0_2, hostOps0_3, hostOps0_4, List.flatten_cons, List.flatten_nil, List.append_nil,
      List.cons_append, List.nil_append]
    after_results
    rfl
  rw [e]; exact asRow_at _ k

end Cert.KernelEntry

end
-- ==== Proof.BlockRow.lean ====
import proofs.«156666_j11991548690715_1_alg».proof.Proof.Gen.KernelIdeal.Frame
import proofs.«156666_j11991548690715_1_alg».proof.Proof.RowMlp
import Idealize.ShloMosaic.Lib.ValueIdx
import Idealize.ShloMosaic.Lib.ValueLayout
import Idealize.ShloMosaic.Lib.Pipeline.Value
import Idealize.ShloMosaic.PureOps.Ideal.Laws

/-
  The kernel's output block, read at row `p` and column `q`, is row `p` of the specification at `q`.

  The block is one covering store of a payload built in three stages.  First stage: each row of the node block
  and of the edge-sum block is contracted (a sum over the 512 columns) against its own 512-by-512 matrix, the two
  sums are added and the bias row is added; the result `h` is gated to `h · σ(h)`.  Second stage: the gated row is
  contracted against the second matrix and its bias row added, which gives the 512 outputs `y` of the row.  Third
  stage: the outputs of the row are summed over the 512 lanes and divided by 512 (the mean), the mean is taken off
  each output, the squares of the centred outputs are summed over the lanes and divided by 512 (the variance), and
  each centred output is multiplied by `(variance + ε)^(-1/2)`, by the gain and shifted by the offset.

  Every operation is read at an index: an elementwise one reads its operands at the same index; a contraction into
  a zero accumulator is the sum over the contracted coordinate; a lane reduction is the sum over the lane
  coordinate; a row or a column broadcast reads the one row or the one column; a format change is the identity on
  the extended reals.
-/

noncomputable section

namespace Cert.BlockRow

open Idealize.ShloMosaic Idealize.ShloMosaic.ValueIdx Cert.KernelIdeal Cert.KernelIdeal.Gen
open scoped BigOperators

/-! ## A contraction of a 1024-by-512 block with a 512-by-512 matrix, read at an index -/

/-- The left operand's row coordinate is the output's row. -/
theorem lhs_axis0 (i : S1024x512.Idx) (c : dot_S1024x512_S512x512_S1024x512_1_0_0_1_n_n.contr.Idx) :
    (dot_S1024x512_S512x512_S1024x512_1_0_0_1_n_n.lhsIdx i c 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column coordinate is the contracted one. -/
theorem lhs_axis1 (i : S1024x512.Idx) (c : dot_S1024x512_S512x512_S1024x512_1_0_0_1_n_n.contr.Idx) :
    (dot_S1024x512_S512x512_S1024x512_1_0_0_1_n_n.lhsIdx i c 1).val = (c ⟨0, by decide⟩).val :=
  dot_S1024x512_S512x512_S1024x512_1_0_0_1_n_n.lhsIdx_val_of_single rfl i c
/-- The right operand's row coordinate is the contracted one. -/
theorem rhs_axis0 (i : S1024x512.Idx) (c : dot_S1024x512_S512x512_S1024x512_1_0_0_1_n_n.contr.Idx) :
    (dot_S1024x512_S512x512_S1024x512_1_0_0_1_n_n.rhsIdx i c 0).val = (c ⟨0, by decide⟩).val :=
  dot_S1024x512_S512x512_S1024x512_1_0_0_1_n_n.rhsIdx_val_of_single rfl i c
/-- The right operand's column coordinate is the output's column. -/
theorem rhs_axis1 (i : S1024x512.Idx) (c : dot_S1024x512_S512x512_S1024x512_1_0_0_1_n_n.contr.Idx) :
    (dot_S1024x512_S512x512_S1024x512_1_0_0_1_n_n.rhsIdx i c 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Into a zero accumulator the product at `(p, o)` is `∑ k, l (p, k) · r (k, o)`: the contraction index has one
    coordinate, which runs over the 512 columns of `l` and rows of `r`. -/
theorem matmul_at {φ₁ φ₂ : FTy} (l : FVec Ideal S1024x512 φ₁) (r : FVec Ideal S512x512 φ₂) (p : Fin 1024) (o : Fin 512) :
    matmul dot_S1024x512_S512x512_S1024x512_1_0_0_1_n_n none l r (constant (F := Ideal) S1024x512 .f32 0x00000000#32) (ix2 p o)
      = ∑ k : Fin 512, l (ix2 p k) * r (ix2 k o) := by
  refine (Ideal.matmul_constant_zero_apply dot_S1024x512_S512x512_S1024x512_1_0_0_1_n_n none l r (ix2 p o)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p o) ((ValueIdx.contrEquiv1 dot_S1024x512_S512x512_S1024x512_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x512_S1024x512_1_0_0_1_n_n.rhsIdx (ix2 p o) ((ValueIdx.contrEquiv1 dot_S1024x512_S512x512_S1024x512_1_0_0_1_n_n 512 rfl rfl).symm k) = ix2 k o := funext fun a => Fin.ext (by
    match a with
    | ⟨0, _⟩ => exact (rhs_axis0 _ _).trans hk
    | ⟨1, _⟩ => exact rhs_axis1 _ _)
  rw [el, er]

/-- The same with both operands passed through a same-shape cast and a format change, which change no value. -/
theorem linear_at (a : FVec Ideal S1024x512 .f32) (w : FVec Ideal S512x512 .f32) (p : Fin 1024) (o : Fin 512) :
    matmul dot_S1024x512_S512x512_S1024x512_1_0_0_1_n_n none (truncf .bf16 (shapeCast S1024x512 a shapeCasts_S1024x512_S1024x512) bitsLt_bf16_f32)
        (truncf .bf16 (shapeCast S512x512 w shapeCasts_S512x512_S512x512) bitsLt_bf16_f32)
        (constant (F := Ideal) S1024x512 .f32 0x00000000#32) (ix2 p o)
      = ∑ k : Fin 512, a (ix2 p k) * w (ix2 k o) := by
  refine (matmul_at _ _ p o).trans ?_
  rw [shapeCast_self, shapeCast_self]
  rfl

/-! ## Rows and columns -/

/-- A bias, gain or offset row, cast to its own shape and broadcast down the 1024 rows, reads its one row. -/
theorem rowBroadcast_at (b : FVec Ideal S1x512 .f32) (p : Fin 1024) (k : Fin 512) :
    broadcastTo S1024x512 (shapeCast S1x512 b shapeCasts_S1x512_S1x512) broadcasts_S1x512_S1024x512 (ix2 p k)
      = b (ix2 (0 : Fin 1) k) := by
  rw [shapeCast_self]
  exact broadcastTo_1b_ab_apply b broadcasts_S1x512_S1024x512 p k

/-- A column broadcast along the 512 lanes reads the column's entry of the row. -/
theorem colBroadcast_at (c : FVec Ideal S1024x1 .f32) (p : Fin 1024) (k : Fin 512) :
    broadcastTo S1024x512 c broadcasts_S1024x1_S1024x512 (ix2 p k) = c (ix2 p (0 : Fin 1)) := by
  refine broadcastTo_apply c broadcasts_S1024x1_S1024x512 (ix2 p k) (ix2 p (0 : Fin 1)) fun ax => ?_
  match ax with
  | ⟨0, _⟩ =>
    show p.val = if (1024 : Nat) = 1 then 0 else p.val
    rw [if_neg (by decide)]
  | ⟨1, _⟩ =>
    show (0 : Nat) = if (1 : Nat) = 1 then 0 else k.val
    rw [if_pos rfl]

/-- The lane sum of a block kept as a column: at row `p` it is the sum of the block's row `p` over the 512 lanes. -/
theorem rowSum_at (v : FVec Ideal S1024x512 .f32) (p : Fin 1024) (u : Fin 1) :
    shapeCast S1024x1 (multiReduction (F := Ideal) .add [1] S1024 v 0x00000000#32 reduces_S1024x512_S1024 (.inl rfl) rfl)
        shapeCasts_S1024_S1024x1 (ix2 p u)
      = ∑ k : Fin 512, v (ix2 p k) := by
  refine (shapeCast_apply _ shapeCasts_S1024_S1024x1 (ix2 p u) (ix1 p) ?_).trans ?_
  · show ((⟨1, ![1024]⟩ : Shape).rowMajor (ix1 p)).val = ((⟨2, ![1024, 1]⟩ : Shape).rowMajor (ix2 p u)).val
    rw [Shape.rowMajor_val_two, Shape.rowMajor_val_one]
    show p.val = p.val * 1 + u.val
    have := u.isLt
    omega
  · refine (Ideal.multiReduction_add_single v _ reduces_S1024x512_S1024 _ _ (ix1 p)).trans ?_
    refine Finset.sum_congr rfl fun k _ => congrArg v ?_
    funext a
    match a with
    | ⟨0, _⟩ => rfl
    | ⟨1, _⟩ => rfl

/-! ## The two layers as the kernel forms them -/

/-- The first layer's output block before the gate: the node block against the upper matrix, plus the edge-sum
    block against the lower matrix, plus the bias row. -/
def hid (x0 x1 : FVec Ideal S1024x512 .f32) (x2 x3 : FVec Ideal S512x512 .f32) (x4 : FVec Ideal S1x512 .f32) :
    FVec Ideal S1024x512 .f32 :=
  addf
    (addf
      (matmul dot_S1024x512_S512x512_S1024x512_1_0_0_1_n_n none (truncf .bf16 (shapeCast S1024x512 x0 shapeCasts_S1024x512_S1024x512) bitsLt_bf16_f32)
        (truncf .bf16 (shapeCast S512x512 x2 shapeCasts_S512x512_S512x512) bitsLt_bf16_f32)
        (constant (F := Ideal) S1024x512 .f32 0x00000000#32))
      (matmul dot_S1024x512_S512x512_S1024x512_1_0_0_1_n_n none (truncf .bf16 (shapeCast S1024x512 x1 shapeCasts_S1024x512_S1024x512) bitsLt_bf16_f32)
        (truncf .bf16 (shapeCast S512x512 x3 shapeCasts_S512x512_S512x512) bitsLt_bf16_f32)
        (constant (F := Ideal) S1024x512 .f32 0x00000000#32)))
    (broadcastTo S1024x512 (shapeCast S1x512 x4 shapeCasts_S1x512_S1x512) broadcasts_S1x512_S1024x512)

/-- The second layer's output block: the gated first layer against the second matrix, plus its bias row. -/
def sec (x0 x1 : FVec Ideal S1024x512 .f32) (x2 x3 : FVec Ideal S512x512 .f32) (x4 : FVec Ideal S1x512 .f32)
    (x5 : FVec Ideal S512x512 .f32) (x6 : FVec Ideal S1x512 .f32) : FVec Ideal S1024x512 .f32 :=
  addf
    (matmul dot_S1024x512_S512x512_S1024x512_1_0_0_1_n_n none
      (truncf .bf16 (mulf (hid x0 x1 x2 x3 x4) (logistic (hid x0 x1 x2 x3 x4))) bitsLt_bf16_f32)
      (truncf .bf16 x5 bitsLt_bf16_f32) (constant (F := Ideal) S1024x512 .f32 0x00000000#32))
    (broadcastTo S1024x512 (shapeCast S1x512 x6 shapeCasts_S1x512_S1x512) broadcasts_S1x512_S1024x512)

/-- The first layer at `(p, k)`: row `p` of the node block summed against column `k` of the upper matrix, plus the
    same for the edge-sum block and the lower matrix, plus the bias at `k`. -/
theorem hid_at (x0 x1 : FVec Ideal S1024x512 .f32) (x2 x3 : FVec Ideal S512x512 .f32) (x4 : FVec Ideal S1x512 .f32)
    (p : Fin 1024) (k : Fin 512) :
    hid x0 x1 x2 x3 x4 (ix2 p k)
      = Cert.RowMlp.hiddenSplit (fun j => x0 (ix2 p j)) (fun j => x1 (ix2 p j)) (fun j k => x2 (ix2 j k))
          (fun j k => x3 (ix2 j k)) (fun k => x4 (ix2 (0 : Fin 1) k)) k := by
  unfold hid Cert.RowMlp.hiddenSplit
  rw [addf_apply, addf_apply, linear_at, linear_at, rowBroadcast_at]

/-- The second layer at `(p, o)`: the gated hidden row `p` summed against column `o` of the second matrix, plus the
    bias at `o`. -/
theorem sec_at (x0 x1 : FVec Ideal S1024x512 .f32) (x2 x3 : FVec Ideal S512x512 .f32) (x4 : FVec Ideal S1x512 .f32)
    (x5 : FVec Ideal S512x512 .f32) (x6 : FVec Ideal S1x512 .f32) (p : Fin 1024) (o : Fin 512) :
    sec x0 x1 x2 x3 x4 x5 x6 (ix2 p o)
      = Cert.RowMlp.second (fun k => Cert.RowMlp.gated (Cert.RowMlp.hiddenSplit (fun j => x0 (ix2 p j)) (fun j => x1 (ix2 p j))
            (fun j k => x2 (ix2 j k)) (fun j k => x3 (ix2 j k)) (fun k => x4 (ix2 (0 : Fin 1) k)) k))
          (fun k o => x5 (ix2 k o)) (fun o => x6 (ix2 (0 : Fin 1) o)) o := by
  unfold sec Cert.RowMlp.second
  rw [addf_apply, matmul_at, rowBroadcast_at]
  refine congrArg (· + x6 (ix2 (0 : Fin 1) o)) (Finset.sum_congr rfl fun k _ => ?_)
  show hid x0 x1 x2 x3 x4 (ix2 p k) * Ideal.logistic (hid x0 x1 x2 x3 x4 (ix2 p k)) * x5 (ix2 k o) = _
  rw [hid_at]
  rfl

/-! ## Centring a block's rows, and the row sums of squares -/

/-- A block less the lane-broadcast of its rows' means: at `(p, o)` the row's entry less the row's mean, whatever
    function `f` of the lane the row `p` is. -/
theorem centre_at (v : FVec Ideal S1024x512 .f32) (p : Fin 1024) (f : Fin 512 → EReal) (hv : ∀ k, v (ix2 p k) = f k)
    (o : Fin 512) :
    subf v (broadcastTo S1024x512
        (divf (shapeCast S1024x1 (multiReduction (F := Ideal) .add [1] S1024 v 0x00000000#32 reduces_S1024x512_S1024 (.inl rfl) rfl)
            shapeCasts_S1024_S1024x1) (broadcast S1024x1 (Scalar.ofBits .f32 0x44000000#32)))
        broadcasts_S1024x1_S1024x512) (ix2 p o)
      = Cert.RowMlp.centred f o := by
  rw [subf_apply, colBroadcast_at, divf_apply, rowSum_at, hv o]
  unfold Cert.RowMlp.centred Cert.RowMlp.mean
  rw [Finset.sum_congr rfl fun k _ => hv k]
  rfl

/-- The lane sum of a block's squares kept as a column: at row `p` the sum of the squares of the row. -/
theorem sumSq_at (w : FVec Ideal S1024x512 .f32) (p : Fin 1024) (g : Fin 512 → EReal) (hw : ∀ k, w (ix2 p k) = g k)
    (u : Fin 1) :
    shapeCast S1024x1 (multiReduction (F := Ideal) .add [1] S1024 (mulf w w) 0x00000000#32 reduces_S1024x512_S1024 (.inl rfl) rfl)
        shapeCasts_S1024_S1024x1 (ix2 p u)
      = ∑ k : Fin 512, g k * g k := by
  rw [rowSum_at]
  refine Finset.sum_congr rfl fun k _ => ?_
  rw [mulf_apply, hw k]

/-! ## The kernel's payloads -/

/-- The second payload is the second layer's block with its rows centred. -/
theorem pay2_eq (x0 x1 : FVec Ideal S1024x512 .f32) (x2 x3 : FVec Ideal S512x512 .f32) (x4 : FVec Ideal S1x512 .f32)
    (x5 : FVec Ideal S512x512 .f32) (x6 : FVec Ideal S1x512 .f32) :
    k0_pay2 (F := Ideal) x0 x1 x2 x3 x4 x5 x6
      = subf (sec x0 x1 x2 x3 x4 x5 x6) (broadcastTo S1024x512
        (divf (shapeCast S1024x1 (multiReduction (F := Ideal) .add [1] S1024 (sec x0 x1 x2 x3 x4 x5 x6) 0x00000000#32 reduces_S1024x512_S1024 (.inl rfl) rfl)
            shapeCasts_S1024_S1024x1) (broadcast S1024x1 (Scalar.ofBits .f32 0x44000000#32)))
        broadcasts_S1024x1_S1024x512) := rfl

/-- So at `(p, o)` it is output `o` of row `p` less the row's mean. -/
theorem pay2_at (x0 x1 : FVec Ideal S1024x512 .f32) (x2 x3 : FVec Ideal S512x512 .f32) (x4 : FVec Ideal S1x512 .f32)
    (x5 : FVec Ideal S512x512 .f32) (x6 : FVec Ideal S1x512 .f32) (p : Fin 1024) (o : Fin 512) :
    k0_pay2 (F := Ideal) x0 x1 x2 x3 x4 x5 x6 (ix2 p o)
      = Cert.RowMlp.centred (Cert.RowMlp.second (fun k => Cert.RowMlp.gated (Cert.RowMlp.hiddenSplit (fun j => x0 (ix2 p j)) (fun j => x1 (ix2 p j))
            (fun j k => x2 (ix2 j k)) (fun j k => x3 (ix2 j k)) (fun k => x4 (ix2 (0 : Fin 1) k)) k))
          (fun k o => x5 (ix2 k o)) (fun o => x6 (ix2 (0 : Fin 1) o))) o := by
  rw [pay2_eq]
  exact centre_at _ p _ (fun k => sec_at x0 x1 x2 x3 x4 x5 x6 p k) o

/-- The third payload is the column of the rows' sums of squared centred outputs. -/
theorem pay3_at (x0 x1 : FVec Ideal S1024x512 .f32) (x2 x3 : FVec Ideal S512x512 .f32) (x4 : FVec Ideal S1x512 .f32)
    (x5 : FVec Ideal S512x512 .f32) (x6 : FVec Ideal S1x512 .f32) (p : Fin 1024) (u : Fin 1) :
    k0_pay3 (F := Ideal) x0 x1 x2 x3 x4 x5 x6 (ix2 p u)
      = ∑ o : Fin 512, Cert.RowMlp.centred (Cert.RowMlp.second (fun k => Cert.RowMlp.gated (Cert.RowMlp.hiddenSplit (fun j => x0 (ix2 p j)) (fun j => x1 (ix2 p j))
            (fun j k => x2 (ix2 j k)) (fun j k => x3 (ix2 j k)) (fun k => x4 (ix2 (0 : Fin 1) k)) k))
          (fun k o => x5 (ix2 k o)) (fun o => x6 (ix2 (0 : Fin 1) o))) o * Cert.RowMlp.centred (Cert.RowMlp.second (fun k => Cert.RowMlp.gated (Cert.RowMlp.hiddenSplit (fun j => x0 (ix2 p j)) (fun j => x1 (ix2 p j))
            (fun j k => x2 (ix2 j k)) (fun j k => x3 (ix2 j k)) (fun k => x4 (ix2 (0 : Fin 1) k)) k))
          (fun k o => x5 (ix2 k o)) (fun o => x6 (ix2 (0 : Fin 1) o))) o :=
  sumSq_at (k0_pay2 (F := Ideal) x0 x1 x2 x3 x4 x5 x6) p _ (fun k => pay2_at x0 x1 x2 x3 x4 x5 x6 p k) u

/-- The stored payload at `(p, q)`, from a centred block `c` and a column `s` of sums of squares that are those of a
    row `y`: the centred entry times `(s / 512 + ε)^(-1/2)`, times the gain at `q`, plus the offset at `q`. -/
theorem pay1_at (c : FVec Ideal S1024x512 .f32) (s : FVec Ideal S1024x1 .f32) (g b : FVec Ideal S1x512 .f32)
    (p : Fin 1024) (q : Fin 512) (y : Fin 512 → EReal) (hc : c (ix2 p q) = Cert.RowMlp.centred y q)
    (hs : s (ix2 p (0 : Fin 1)) = ∑ o : Fin 512, Cert.RowMlp.centred y o * Cert.RowMlp.centred y o) :
    k0_pay1 (F := Ideal) c s (Scalar.ofBits .f32 0x44000000#32) g b (ix2 p q)
      = Cert.RowMlp.normed y (fun o => g (ix2 (0 : Fin 1) o)) (fun o => b (ix2 (0 : Fin 1) o)) q := by
  show addf (mulf (mulf c (broadcastTo S1024x512
          (rsqrt (addf (divf s (broadcast S1024x1 (Scalar.ofBits .f32 0x44000000#32)))
            (broadcast S1024x1 (Scalar.ofBits .f32 0x3727C5AC#32)))) broadcasts_S1024x1_S1024x512))
        (broadcastTo S1024x512 (shapeCast S1x512 g shapeCasts_S1x512_S1x512) broadcasts_S1x512_S1024x512))
      (broadcastTo S1024x512 (shapeCast S1x512 b shapeCasts_S1x512_S1x512) broadcasts_S1x512_S1024x512) (ix2 p q) = _
  rw [addf_apply, mulf_apply, mulf_apply, rowBroadcast_at, rowBroadcast_at, colBroadcast_at, hc]
  show Cert.RowMlp.centred y q * Ideal.rsqrt (Ideal.div (s (ix2 p (0 : Fin 1))) Cert.RowMlp.cWidth + Cert.RowMlp.cEps)
      * g (ix2 (0 : Fin 1) q) + b (ix2 (0 : Fin 1) q) = _
  rw [hs]
  rfl

/-! ## The block -/

/-- The one covering store leaves its payload, and every load reads its whole block: the block at `(p, q)` is the
    specification's row `p` at `q`. -/
theorem block_at (x0 x1 : Vec Ideal S1024x512 .f32) (x2 x3 : Vec Ideal S512x512 .f32) (x4 : Vec Ideal S1x512 .f32)
    (x5 : Vec Ideal S512x512 .f32) (x6 x7 x8 : Vec Ideal S1x512 .f32) (p : Fin 1024) (q : Fin 512) :
    out0_9 (F := Ideal) x0 x1 x2 x3 x4 x5 x6 x7 x8 (ix2 p q)
      = Cert.RowMlp.rowSplit (fun j => x0 (ix2 p j)) (fun j => x1 (ix2 p j)) (fun j k => x2 (ix2 j k)) (fun j k => x3 (ix2 j k))
          (fun k => x4 (ix2 (0 : Fin 1) k)) (fun k o => x5 (ix2 k o)) (fun o => x6 (ix2 (0 : Fin 1) o))
          (fun o => x7 (ix2 (0 : Fin 1) o)) (fun o => x8 (ix2 (0 : Fin 1) o)) q := by
  have hz : (![0, 0] : Fin 2 → Nat) = fun _ => 0 := by
    funext a
    match a with
    | ⟨0, _⟩ => rfl
    | ⟨1, _⟩ => rfl
  unfold out0_9
  rw [View.canon_unit_zero hz]
  simp only [View.ld_unit_zero (S := S1024x512) hz, View.ld_unit_zero (S := S512x512) hz, View.ld_unit_zero (S := S1x512) hz]
  exact pay1_at _ _ x7 x8 p q _ (pay2_at x0 x1 x2 x3 x4 x5 x6 p q) (pay3_at x0 x1 x2 x3 x4 x5 x6 p (0 : Fin 1))

end Cert.BlockRow

end
-- ==== Proof.ResultArray.lean ====
/-
  The kernel's result array, row by row.

  Grid point `t` of 41 works on rows `1024 t … 1024 t + 1023` of the padded node and edge-sum arrays and writes
  the same rows of the 41984-by-512 output; the parameter arrays are read whole at every point. Row `p` of the
  block a point leaves is the row function of row `p` of its two input blocks, so the output array ends holding, in
  every row `r`, the row function of row `r` of the padded inputs: the 41 blocks tile the 41984 rows. The result
  is the first 40962 rows, and there a padded row is the unpadded one.
-/
import proofs.«156666_j11991548690715_1_alg».proof.Proof.Gen.KernelIdeal.Frame
import proofs.«156666_j11991548690715_1_alg».proof.Proof.RowMlp
import proofs.«156666_j11991548690715_1_alg».proof.Proof.BlockRow
import proofs.«156666_j11991548690715_1_alg».proof.Proof.EntryArrays
import Idealize.ShloMosaic.Lib.Pipeline.Value
import Idealize.ShloMosaic.Lib.StableHlo.Run
import Idealize.ShloMosaic.Lib.ValueIdx
import Idealize.ShloMosaic.Lib.Tactic

noncomputable section

namespace Cert.KernelResult

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.RowMlp Cert.KernelEntry

variable (m : (ℓ : Loc nD τ sig) → Buf (Elt Ideal) ℓ) (ρ : Dev nD → PrngReg)

/-- The row function depends on its arguments only through their values. -/
theorem rowSplit_congr {xn xn' xe xe' : Fin 512 → EReal} {A A' B B' : Fin 512 → Fin 512 → EReal} {b1 b1' : Fin 512 → EReal}
    {W2 W2' : Fin 512 → Fin 512 → EReal} {b2 b2' g g' b b' : Fin 512 → EReal} {q q' : Fin 512}
    (h0 : ∀ j, xn j = xn' j) (h1 : ∀ j, xe j = xe' j) (h2 : ∀ j k, A j k = A' j k) (h3 : ∀ j k, B j k = B' j k)
    (h4 : ∀ k, b1 k = b1' k) (h5 : ∀ k o, W2 k o = W2' k o) (h6 : ∀ o, b2 o = b2' o) (h7 : ∀ o, g o = g' o)
    (h8 : ∀ o, b o = b' o) (hq : q = q') :
    rowSplit xn xe A B b1 W2 b2 g b q = rowSplit xn' xe' A' B' b1' W2' b2' g' b' q' := by
  obtain rfl : xn = xn' := funext h0
  obtain rfl : xe = xe' := funext h1
  obtain rfl : A = A' := funext fun j => funext (h2 j)
  obtain rfl : B = B' := funext fun j => funext (h3 j)
  obtain rfl : b1 = b1' := funext h4
  obtain rfl : W2 = W2' := funext fun k => funext (h5 k)
  obtain rfl : b2 = b2' := funext h6
  obtain rfl : g = g' := funext h7
  obtain rfl : b = b' := funext h8
  subst hq
  rfl

/-- Where each window's block sits at grid point `t`: the two row-blocked inputs and the output at block row `t`,
    every parameter at its one block. Decided over the 41 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## Each input block as entries of its array -/

/-- Row `p` of the node block at point `t` is row `1024 t + p` of the padded node array. -/
theorem node_block (c : Dev nD) (t : Fin cfg0.N) (p : Fin 1024) (j : Fin 512) (r : Fin 41984) (hr : r.val = t.val * 1024 + p.val) :
    (iblk m c 0 t : Vec Ideal S1024x512 .f32) (ix2 p j) = (V m c main_v8 : S41984x512.Idx → EReal) (ix2 r j) := by
  obtain ⟨e00, e01, -⟩ := idx_facts t
  show (V m c main_v8 : S41984x512.Idx → EReal) (((cfg0.win 0).blk t).view.emb (ix2 p j)) = _
  refine congrArg _ (funext fun a => Fin.ext ?_)
  match a with
  | ⟨0, _⟩ => show win0_0.index t (0 : Fin 2) * 1024 + 1 * p.val = r.val; omega
  | ⟨1, _⟩ => show win0_0.index t (1 : Fin 2) * 512 + 1 * j.val = j.val; omega

/-- Row `p` of the edge-sum block at point `t` is row `1024 t + p` of the padded edge-sum array. -/
theorem edge_block (c : Dev nD) (t : Fin cfg0.N) (p : Fin 1024) (j : Fin 512) (r : Fin 41984) (hr : r.val = t.val * 1024 + p.val) :
    (iblk m c 1 t : Vec Ideal S1024x512 .f32) (ix2 p j) = (V m c main_v9 : S41984x512.Idx → EReal) (ix2 r j) := by
  obtain ⟨-, -, e10, e11, -⟩ := idx_facts t
  show (V m c main_v9 : S41984x512.Idx → EReal) (((cfg0.win 1).blk t).view.emb (ix2 p j)) = _
  refine congrArg _ (funext fun a => Fin.ext ?_)
  match a with
  | ⟨0, _⟩ => show win0_1.index t (0 : Fin 2) * 1024 + 1 * p.val = r.val; omega
  | ⟨1, _⟩ => show win0_1.index t (1 : Fin 2) * 512 + 1 * j.val = j.val; omega

/-- The upper matrix half is read whole at every point. -/
theorem upper_block (c : Dev nD) (t : Fin cfg0.N) (j k : Fin 512) :
    (iblk m c 2 t : Vec Ideal S512x512 .f32) (ix2 j k) = (V m c main_v10 : S512x512.Idx → EReal) (ix2 j k) := by
  obtain ⟨-, -, -, -, e0, e1, -⟩ := idx_facts t
  show (V m c main_v10 : S512x512.Idx → EReal) (((cfg0.win 2).blk t).view.emb (ix2 j k)) = _
  refine congrArg _ (funext fun a => Fin.ext ?_)
  match a with
  | ⟨0, _⟩ => show win0_2.index t (0 : Fin 2) * 512 + 1 * j.val = j.val; omega
  | ⟨1, _⟩ => show win0_2.index t (1 : Fin 2) * 512 + 1 * k.val = k.val; omega

/-- The lower matrix half likewise. -/
theorem lower_block (c : Dev nD) (t : Fin cfg0.N) (j k : Fin 512) :
    (iblk m c 3 t : Vec Ideal S512x512 .f32) (ix2 j k) = (V m c main_v11 : S512x512.Idx → EReal) (ix2 j k) := by
  obtain ⟨-, -, -, -, -, -, e0, e1, -⟩ := idx_facts t
  show (V m c main_v11 : S512x512.Idx → EReal) (((cfg0.win 3).blk t).view.emb (ix2 j k)) = _
  refine congrArg _ (funext fun a => Fin.ext ?_)
  match a with
  | ⟨0, _⟩ => show win0_3.index t (0 : Fin 2) * 512 + 1 * j.val = j.val; omega
  | ⟨1, _⟩ => show win0_3.index t (1 : Fin 2) * 512 + 1 * k.val = k.val; omega

/-- The first bias row. -/
theorem bias1_block (c : Dev nD) (t : Fin cfg0.N) (k : Fin 512) :
    (iblk m c 4 t : Vec Ideal S1x512 .f32) (ix2 (0 : Fin 1) k) = (V m c main_v12 : S1x512.Idx → EReal) (ix2 (0 : Fin 1) k) := by
  obtain ⟨-, -, -, -, -, -, -, -, e0, e1, -⟩ := idx_facts t
  show (V m c main_v12 : S1x512.Idx → EReal) (((cfg0.win 4).blk t).view.emb (ix2 (0 : Fin 1) k)) = _
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * k.val = k.val; omega

/-- The second matrix. -/
theorem second_block (c : Dev nD) (t : Fin cfg0.N) (j k : Fin 512) :
    (iblk m c 5 t : Vec Ideal S512x512 .f32) (ix2 j k) = (V m c main_arg5 : S512x512.Idx → EReal) (ix2 j k) := by
  obtain ⟨-, -, -, -, -, -, -, -, -, -, e0, e1, -⟩ := idx_facts t
  show (V m c main_arg5 : S512x512.Idx → EReal) (((cfg0.win 5).blk t).view.emb (ix2 j k)) = _
  refine congrArg _ (funext fun a => Fin.ext ?_)
  match a with
  | ⟨0, _⟩ => show win0_5.index t (0 : Fin 2) * 512 + 1 * j.val = j.val; omega
  | ⟨1, _⟩ => show win0_5.index t (1 : Fin 2) * 512 + 1 * k.val = k.val; omega

/-- The second bias row. -/
theorem bias2_block (c : Dev nD) (t : Fin cfg0.N) (k : Fin 512) :
    (iblk m c 6 t : Vec Ideal S1x512 .f32) (ix2 (0 : Fin 1) k) = (V m c main_v13 : S1x512.Idx → EReal) (ix2 (0 : Fin 1) k) := by
  obtain ⟨-, -, -, -, -, -, -, -, -, -, -, -, e0, e1, -⟩ := idx_facts t
  show (V m c main_v13 : S1x512.Idx → EReal) (((cfg0.win 6).blk t).view.emb (ix2 (0 : Fin 1) k)) = _
  refine congrArg _ (funext fun a => Fin.ext ?_)
  match a with
  | ⟨0, _⟩ => show win0_6.index t (0 : Fin 2) * 1 + 1 * 0 = 0; omega
  | ⟨1, _⟩ => show win0_6.index t (1 : Fin 2) * 512 + 1 * k.val = k.val; omega

/-- The gain row. -/
theorem gain_block (c : Dev nD) (t : Fin cfg0.N) (k : Fin 512) :
    (iblk m c 7 t : Vec Ideal S1x512 .f32) (ix2 (0 : Fin 1) k) = (V m c main_v14 : S1x512.Idx → EReal) (ix2 (0 : Fin 1) k) := by
  obtain ⟨-, -, -, -, -, -, -, -, -, -, -, -, -, -, e0, e1, -⟩ := idx_facts t
  show (V m c main_v14 : S1x512.Idx → EReal) (((cfg0.win 7).blk t).view.emb (ix2 (0 : Fin 1) k)) = _
  refine congrArg _ (funext fun a => Fin.ext ?_)
  match a with
  | ⟨0, _⟩ => show win0_7.index t (0 : Fin 2) * 1 + 1 * 0 = 0; omega
  | ⟨1, _⟩ => show win0_7.index t (1 : Fin 2) * 512 + 1 * k.val = k.val; omega

/-- The offset row. -/
theorem offset_block (c : Dev nD) (t : Fin cfg0.N) (k : Fin 512) :
    (iblk m c 8 t : Vec Ideal S1x512 .f32) (ix2 (0 : Fin 1) k) = (V m c main_v15 : S1x512.Idx → EReal) (ix2 (0 : Fin 1) k) := by
  obtain ⟨-, -, -, -, -, -, -, -, -, -, -, -, -, -, -, -, e0, e1, -⟩ := idx_facts t
  show (V m c main_v15 : S1x512.Idx → EReal) (((cfg0.win 8).blk t).view.emb (ix2 (0 : Fin 1) k)) = _
  refine congrArg _ (funext fun a => Fin.ext ?_)
  match a with
  | ⟨0, _⟩ => show win0_8.index t (0 : Fin 2) * 1 + 1 * 0 = 0; omega
  | ⟨1, _⟩ => show win0_8.index t (1 : Fin 2) * 512 + 1 * k.val = k.val; omega

/-! ## The output array -/

/-- Row `r` of the output array: the row function of row `r` of the padded inputs and of the parameters, all as
    the region finds them. -/
def outRow (c : Dev nD) (r : Fin 41984) (q : Fin 512) : EReal :=
  rowSplit (fun j => (V m c main_v8 : S41984x512.Idx → EReal) (ix2 r j))
    (fun j => (V m c main_v9 : S41984x512.Idx → EReal) (ix2 r j))
    (fun j k => (V m c main_v10 : S512x512.Idx → EReal) (ix2 j k))
    (fun j k => (V m c main_v11 : S512x512.Idx → EReal) (ix2 j k))
    (fun k => (V m c main_v12 : S1x512.Idx → EReal) (ix2 (0 : Fin 1) k))
    (fun k o => (V m c main_arg5 : S512x512.Idx → EReal) (ix2 k o))
    (fun o => (V m c main_v13 : S1x512.Idx → EReal) (ix2 (0 : Fin 1) o))
    (fun o => (V m c main_v14 : S1x512.Idx → EReal) (ix2 (0 : Fin 1) o))
    (fun o => (V m c main_v15 : S1x512.Idx → EReal) (ix2 (0 : Fin 1) o)) q

/-- The whole output array. -/
def outArr (c : Dev nD) : S41984x512.Idx → EReal := fun i => outRow m c (i 0) (i 1)

/-- The output array at row `r`, column `q`. -/
theorem outArr_apply (c : Dev nD) (r : Fin 41984) (q : Fin 512) : outArr m c (ix2 r q) = outRow m c r q := rfl

/-- What point `t` writes back is block `t` of `outArr`. -/
theorem flushed_eq (c : Dev nD) (t : Fin cfg0.N) :
    (dats m 0 c).flushed 9 t = ((cfg0.win 9).blk t).view.read (Elt Ideal) (outArr m c) := by
  show (cfg0.win 9).cut (grid0.coords t) ((dats m 0 c).after 9 t) = _
  rw [after0_9]
  obtain ⟨-, -, -, -, -, -, -, -, -, -, -, -, -, -, -, -, -, -, e90, e91⟩ := idx_facts t
  refine funext fun (y : S1024x512.Idx) => ?_
  have hy0 : (y 0).val < 1024 := (y 0).isLt
  have hy1 : (y 1).val < 512 := (y 1).isLt
  show out0_9 (F := Ideal) (iblk m c 0 t) (iblk m c 1 t) (iblk m c 2 t) (iblk m c 3 t) (iblk m c 4 t) (iblk m c 5 t) (iblk m c 6 t)
      (iblk m c 7 t) (iblk m c 8 t) y = outArr m c (((cfg0.win 9).blk t).view.emb y)
  refine ((congrArg (out0_9 (F := Ideal) (iblk m c 0 t) (iblk m c 1 t) (iblk m c 2 t) (iblk m c 3 t) (iblk m c 4 t) (iblk m c 5 t)
      (iblk m c 6 t) (iblk m c 7 t) (iblk m c 8 t)) (eq_ix2 y)).trans
    (Cert.BlockRow.block_at (iblk m c 0 t) (iblk m c 1 t) (iblk m c 2 t) (iblk m c 3 t) (iblk m c 4 t) (iblk m c 5 t) (iblk m c 6 t)
      (iblk m c 7 t) (iblk m c 8 t) (y 0) (y 1))).trans ?_
  have hr : ((((cfg0.win 9).blk t).view.emb y) 0).val = t.val * 1024 + (y 0).val := by
    show win0_9.index t (0 : Fin 2) * 1024 + 1 * (y 0).val = _; omega
  have hq : y 1 = (((cfg0.win 9).blk t).view.emb y) 1 := Fin.ext (by
    show (y 1).val = win0_9.index t (1 : Fin 2) * 512 + 1 * (y 1).val; omega)
  unfold outArr outRow
  exact rowSplit_congr (fun j => node_block m c t (y 0) j _ hr) (fun j => edge_block m c t (y 0) j _ hr)
    (fun j k => upper_block m c t j k) (fun j k => lower_block m c t j k) (fun k => bias1_block m c t k)
    (fun k o => second_block m c t k o) (fun o => bias2_block m c t o) (fun o => gain_block m c t o)
    (fun o => offset_block m c t o) hq

/-- Every row of the output lies in some point's block: row `r` in block `r / 1024`. -/
theorem covered (i : S41984x512.Idx) :
    ∃ t : Fin cfg0.N, (cfg0.win 9).flush t = true ∧ i ∈ ((cfg0.win 9).blk t).view.set := by
  have hN : cfg0.N = 41 := N_0
  have h0 : (i 0).val < 41984 := (i 0).isLt
  have h1 : (i 1).val < 512 := (i 1).isLt
  let t : Fin cfg0.N := ⟨(i 0).val / 1024, by rw [hN]; omega⟩
  obtain ⟨-, -, -, -, -, -, -, -, -, -, -, -, -, -, -, -, -, -, e90, e91⟩ := idx_facts t
  have ht : t.val = (i 0).val / 1024 := rfl
  refine ⟨t, flush0_9 t, ?_⟩
  show i ∈ ((View.whole main_v16).slice (win0_9.rect t)).set
  rw [View.set_slice_whole, Rect.mem_set_unit]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 512 ≤ (i 1).val ∧ (i 1).val < win0_9.index t (1 : Fin 2) * 512 + 512; omega

/-- So the output array ends holding `outArr`. -/
theorem final (c : Dev nD) : (dats m 0 c).arrAt 9 cfg0.N = outArr m c :=
  (dats m 0 c).arrAt_eq_of_cover 9 (outArr m c) (fun t _ => flushed_eq m c t) (covered)

/-! ## The result: the first 40962 rows -/

/-- The result buffer after the two host operations that follow the region: the output array cut to its first
    40962 rows and given a leading unit axis. -/
theorem result_eq (c : Dev nD) :
    Pipeline.afterTail₀ cfgs (dats m) 0 (V0 m) [hostOps1] c main_v18
      = shapeCast S1x40962x512 (extractStridedSlice S40962x512 ![0, 0] (outArr m c) slices_S41984x512_S40962x512_0_0)
          shapeCasts_S40962x512_S1x40962x512 := by
  unfold Pipeline.afterTail₀
  show StableHlo.after hostOps1 _ (Proc.devRef .tc main_v18) = _
  after_results
  have e : Pipeline.withArrays (cfgs 0).spec c (V0 m c) (fun w => (dats m 0 c).arrAt w (cfgs 0).N) (Proc.devRef .tc main_v16)
      = outArr m c :=
    (Pipeline.withArrays_arr spec0 launch0.win.arr_inj c _ _ 9).trans (final m c)
  rw [e]
  rfl

/-- The result at row `n`, column `o` is row `n` of the output array. -/
theorem result_at (c : Dev nD) (n : Fin 40962) (o : Fin 512) :
    (Pipeline.afterTail₀ cfgs (dats m) 0 (V0 m) [hostOps1] c main_v18 : S1x40962x512.Idx → EReal) (ix3 (0 : Fin 1) n o)
      = outRow m c (⟨n.val, by have := n.isLt; omega⟩ : Fin 41984) o := by
  rw [result_eq]
  refine (shapeCast_apply _ shapeCasts_S40962x512_S1x40962x512 (ix3 (0 : Fin 1) n o) (ix2 n o)
    (by rewrite [Shape.rowMajor_val_two, Shape.rowMajor_val_three]; show n.val * 512 + o.val = (0 * 40962 + n.val) * 512 + o.val; omega)).trans ?_
  exact (extractStridedSlice_apply ![0, 0] (outArr m c) slices_S41984x512_S40962x512_0_0 (ix2 n o)
    (ix2 (⟨n.val, by have := n.isLt; omega⟩ : Fin 41984) o) (fun a => match a with
      | ⟨0, _⟩ => by show n.val = 0 + n.val; omega
      | ⟨1, _⟩ => by show o.val = 0 + o.val; omega)).trans (outArr_apply m c _ o)

/-- The result at row `n`, column `o`, in terms of the arguments: the row function of row `n` of the node features and of
    the scatter-added edge sums, the two halves of the first matrix, and the other parameters. -/
theorem kernel_at (c : Dev nD) (n : Fin 40962) (o : Fin 512) :
    (Pipeline.afterTail₀ cfgs (dats m) 0 (V0 m) [hostOps1] c main_v18 : S1x40962x512.Idx → EReal) (ix3 (0 : Fin 1) n o)
      = rowSplit (fun j => m ((c : Thread nD τ).loc main_arg0) (ix3 (0 : Fin 1) n j)) (fun j => edgeSum m c (ix3 (0 : Fin 1) n j))
          (fun j k => m ((c : Thread nD τ).loc main_arg3) (ix2 (upper j) k)) (fun j k => m ((c : Thread nD τ).loc main_arg3) (ix2 (lower j) k))
          (fun k => m ((c : Thread nD τ).loc main_arg4) (ix1 k)) (fun k o' => m ((c : Thread nD τ).loc main_arg5) (ix2 k o'))
          (fun o' => m ((c : Thread nD τ).loc main_arg6) (ix1 o')) (fun o' => m ((c : Thread nD τ).loc main_arg7) (ix1 o'))
          (fun o' => m ((c : Thread nD τ).loc main_arg8) (ix1 o')) o := by
  rw [result_at]
  unfold outRow
  exact rowSplit_congr (fun j => node_row m c n j) (fun j => edge_row m c n j) (fun j k => upper_at m c j k)
    (fun j k => lower_at m c j k) (fun k => bias1_at m c k) (fun k o' => congrFun (V_main_arg5 m c) (ix2 k o'))
    (fun o' => bias2_at m c o') (fun o' => gain_at m c o') (fun o' => offset_at m c o') rfl

/-! ## The run -/

/-- Every weakly fair execution ends with the result buffer at the tail's value over the output array, and with the
    nine arguments as they were. -/
theorem run : θ_run defs (onTc (τ := τ) (main (F := Ideal))) ⟨m, fun _ => 0, ρ⟩ (fun r => ∀ c : Dev nD,
      r.2.mem ((c.tc : Thread nD τ).loc main_v18) = Pipeline.afterTail₀ cfgs (dats m) 0 (V0 m) [hostOps1] c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c).2 main_v18 (Pipeline.mem_restRefs_of main_v18 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelResult

end
-- ==== Proof.lean ====
/-
  A gated two-layer perceptron over graph nodes followed by a row normalisation, tiled over node rows, against its
  whole-array reference, over the extended reals.

  Both programs first scatter-add the edge features into their receiver nodes' rows with one and the same host
  operation. The reference then joins each node's 512 features with its 512 edge sums, contracts the 1024 joined
  entries with the first matrix, adds a bias, gates each hidden entry `h` to `h / (1 + e^(-h))`, contracts with
  the second matrix, adds a bias, and normalises each row: centred by its mean, scaled by the inverse square root of
  its mean squared deviation plus `ε`, times a gain, plus an offset. The kernel pads the node and edge-sum arrays
  to 41 blocks of 1024 rows; at each block it contracts the node block with the upper half of the first matrix and
  the edge-sum block with the lower half and adds the two, gates with the logistic function, and does the rest as
  the reference does, row by row; the first 40962 rows of its output are the result.

  Row by row both are one function of the row's inputs (Proof/RowMlp.lean): the joined contraction is the sum of the
  two half contractions, a finite sum cut in two, and `h · σ(h)` with `σ(h) = 1 / (1 + e^(-h))` is the reference's
  quotient by definition of the logistic function on the extended reals. Changes of float format are the identity
  there, and the padding rows are never read back. No step cancels or distributes, so the inputs' finiteness is not used.

  Proof/RefRead.lean reads the reference's result at an index, Proof/BlockRow.lean the kernel's block at an index,
  Proof/EntryArrays.lean the kernel's operand arrays at an index, Proof/ResultArray.lean the kernel's result array.
-/
import proofs.«156666_j11991548690715_1_alg».proof.Defs
import proofs.«156666_j11991548690715_1_alg».proof.Proof.Gen.Kernel
import proofs.«156666_j11991548690715_1_alg».proof.Proof.Gen.Kernel.Frame
import proofs.«156666_j11991548690715_1_alg».proof.Proof.Gen.KernelIdeal
import proofs.«156666_j11991548690715_1_alg».proof.Proof.Gen.KernelIdeal.Frame
import proofs.«156666_j11991548690715_1_alg».proof.Proof.Gen.ReferenceIdeal
import proofs.«156666_j11991548690715_1_alg».proof.Proof.Gen.ReferenceIdeal.Run
import proofs.«156666_j11991548690715_1_alg».proof.Proof.Gen.ReferenceIdeal.Read
import proofs.«156666_j11991548690715_1_alg».proof.Proof.Gen.Pre_finite_inputs
import proofs.«156666_j11991548690715_1_alg».proof.Proof.RowMlp
import proofs.«156666_j11991548690715_1_alg».proof.Proof.RefRead
import proofs.«156666_j11991548690715_1_alg».proof.Proof.EntryArrays
import proofs.«156666_j11991548690715_1_alg».proof.Proof.ResultArray
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The scatter-added edge sums are one term of the edge indices and the edge features in both programs. -/
theorem edgeSum_eq (m : (ℓ : Loc Cert.KernelIdeal.nD Cert.KernelIdeal.τ Cert.KernelIdeal.sig) → Buf (Elt Ideal) ℓ)
    (c : Dev Cert.KernelIdeal.nD) :
    Cert.KernelEntry.edgeSum m c
      = Cert.ReferenceIdeal.Read.val_main_v5 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := rfl

/-- Both programs end with equal results: at every row `n` and column `o` the reference's entry is the row function
    over the joined row, the kernel's the row function with the first layer split, and the two agree. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v18, Cert.KernelResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq]
  obtain ⟨h0, h1, h2, h3, h4, h5, h6, h7, h8⟩ := hagree c
  rw [h0, h1, h2, h3, h4, h5, h6, h7, h8]
  funext i
  obtain ⟨b, n, o, rfl⟩ : ∃ (b : Fin 1) (n : Fin 40962) (o : Fin 512), i = ix3 b n o := ⟨i 0, i 1, i 2, eq_ix3 i⟩
  obtain rfl : b = 0 := Subsingleton.elim _ _
  rw [Cert.RefRead.result_at, Cert.RowMlp.rowJoined_eq_split, ← edgeSum_eq]
  exact (Cert.KernelResult.kernel_at m c n o).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
